-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S2x128 : Shape := ⟨2, ![2, 128]⟩
abbrev S2000x128 : Shape := ⟨2, ![2000, 128]⟩
abbrev S1x128 : Shape := ⟨2, ![1, 128]⟩

abbrev nBuf : Space → Nat
  | .hbm => 67
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S50000, .i32⟩
  | .hbm, ⟨12, _⟩ => ⟨S_, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .i32⟩
  | .hbm, ⟨25, _⟩ => ⟨S600000, .i32⟩
  | .hbm, ⟨26, _⟩ => ⟨S50000, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S2x128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2x128, .f32⟩
  | .local _ .vmem, ⟨9, _⟩ => ⟨S2000x128, .f32⟩
  | .local _ .vmem, ⟨10, _⟩ => ⟨S2000x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2x128_S2x128_0_0 : ∀ a, (![0, 0] : Fin 2 → Nat) a + S2x128.size a ≤ S2x128.size a
  h_S2x128 : 0 < S2x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x128_S1x128_1_0 : ∀ a, (![1, 0] : Fin 2 → Nat) a + S1x128.size a ≤ S2x128.size a
  reduces_S2000x128_S128 : S2000x128.Reduces [0] S128
  slices_S2x128_S1x128_0_0 : S2x128.Slices ![0, 0] S1x128
  bcast_S_S128 : S_.BroadcastsInDim S128 (![] : Fin 0 → Fin S128.rank)
  slices_S2x128_S1x128_1_0 : S2x128.Slices ![1, 0] S1x128
  shapeCasts_S128_S128 : S128.ShapeCasts S128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S2x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S50000, .i32⟩
  | .hbm, ⟨12, _⟩ => ⟨S_, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S_, .i32⟩
  | .hbm, ⟨25, _⟩ => ⟨S600000, .i32⟩
  | .hbm, ⟨26, _⟩ => ⟨S50000, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_cst : Ref sig .tc := ⟨.hbm, 83, rfl⟩
abbrev main_call2_v0 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_1_0_0_n_n_wf : DotDims.WF S50000x128 S128x128 S50000x128 [1] [1] [0] [0] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.Spec.lean ====
/-
  The mathematics both programs compute, over the extended reals, index by index.

  Nodes n < 50000, features d, o < 128.  From the node features `x`, a second array `A` of the same shape
  (the degree-normalised neighbour sum; carried here as a parameter), a weight matrix `W`, a bias `b`, a scale `g`
  and a shift `be`:
    y n o    = (∑ d, (x n d + A n d) · W o d) + b o                 the linear layer
    mean o   = (∑ n, y n o) / 50000
    varK o   = (∑ n, y n o · y n o) / 50000 − mean o · mean o      variance as second moment minus squared mean
    varR o   = (∑ n, (y n o − mean o)²) / 50000                    variance as mean squared deviation
    out n o  = max (((y n o − mean o) · rsqrt (var o + ε)) · g o + be o) 0
  One program uses `varK`, the other `varR`.
-/
import Idealize.ShloMosaic.Lib.ValueIdx
import Idealize.ShloMosaic.PureOps.Ideal

noncomputable section

namespace Cert.BnSpec

open Idealize.ShloMosaic Idealize.ShloMosaic.ValueIdx

/-- Node-by-feature arrays. -/
abbrev Rows : Shape := ⟨2, ![50000, 128]⟩
/-- The weight matrix, output feature by input feature. -/
abbrev Wt : Shape := ⟨2, ![128, 128]⟩
/-- One value per feature. -/
abbrev Col : Shape := ⟨1, ![128]⟩
/-- Two rows of per-feature sums: the column sums and the column sums of squares. -/
abbrev Stat : Shape := ⟨2, ![2, 128]⟩

/-- The number of nodes as the float both programs divide by. -/
abbrev cN : EReal := Ideal.ofBits .f32 0x47435000#32
/-- The variance offset ε both programs add. -/
abbrev cEps : EReal := Ideal.ofBits .f32 0x3727C5AC#32
/-- The float zero. -/
abbrev cZero : EReal := Ideal.ofBits .f32 0x00000000#32

/-- The linear layer applied to `x + A`. -/
def lin (x A : Rows.Idx → EReal) (W : Wt.Idx → EReal) (b : Col.Idx → EReal) (n : Fin 50000) (o : Fin 128) : EReal :=
  (∑ d : Fin 128, (x (ix2 n d) + A (ix2 n d)) * W (ix2 o d)) + b (ix1 o)

/-- Sum of a column over all nodes. -/
def colSum (y : Fin 50000 → Fin 128 → EReal) (o : Fin 128) : EReal := ∑ n : Fin 50000, y n o

/-- Sum of a column's squares over all nodes. -/
def colSumSq (y : Fin 50000 → Fin 128 → EReal) (o : Fin 128) : EReal := ∑ n : Fin 50000, y n o * y n o

/-- The column mean. -/
def mean (y : Fin 50000 → Fin 128 → EReal) (o : Fin 128) : EReal := Ideal.div (colSum y o) cN

/-- The variance as the second moment minus the squared mean. -/
def varK (y : Fin 50000 → Fin 128 → EReal) (o : Fin 128) : EReal :=
  Ideal.div (colSumSq y o) cN - mean y o * mean y o

/-- The variance as the mean of the squared deviations. -/
def varR (y : Fin 50000 → Fin 128 → EReal) (o : Fin 128) : EReal :=
  Ideal.div (∑ n : Fin 50000, (y n o - mean y o) * (y n o - mean y o)) cN

/-- The reciprocal standard deviation from a variance. -/
def invStd (v : Fin 128 → EReal) (o : Fin 128) : EReal := Ideal.rsqrt (v o + cEps)

/-- Normalise, scale, shift, clamp at zero. -/
def bnRelu (y : Fin 50000 → Fin 128 → EReal) (mu istd : Fin 128 → EReal) (g be : Col.Idx → EReal)
    (n : Fin 50000) (o : Fin 128) : EReal :=
  max (((y n o - mu o) * istd o) * g (ix1 o) + be (ix1 o)) cZero

/-- The two rows of column statistics as one array. -/
def statsArr (y : Fin 50000 → Fin 128 → EReal) : Stat.Idx → EReal :=
  fun i => if (i 0).val = 0 then colSum y (i 1) else colSumSq y (i 1)

/-- The result with the variance taken as second moment minus squared mean. -/
def outK (x A : Rows.Idx → EReal) (W : Wt.Idx → EReal) (b g be : Col.Idx → EReal) : Rows.Idx → EReal :=
  fun i => bnRelu (lin x A W b) (mean (lin x A W b)) (invStd (varK (lin x A W b))) g be (i 0) (i 1)

/-- The result with the variance taken as mean squared deviation. -/
def outR (x A : Rows.Idx → EReal) (W : Wt.Idx → EReal) (b g be : Col.Idx → EReal) : Rows.Idx → EReal :=
  fun i => bnRelu (lin x A W b) (mean (lin x A W b)) (invStd (varR (lin x A W b))) g be (i 0) (i 1)

/-- An extended real that is a real number. -/
def IsReal (v : EReal) : Prop := ∃ r : ℝ, v = (r : EReal)

end Cert.BnSpec

end
-- ==== Proof.Region0Defs.lean ====
import proofs.«150599_j78005196030507_1_alg».proof.Proof.Gen.KernelIdeal.Frame
import proofs.«150599_j78005196030507_1_alg».proof.Proof.Spec

set_option maxRecDepth 16384

noncomputable section

namespace Cert.KernelIdeal.Linear

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block of 2000 rows of the linear layer the first kernel's body computes at grid point `t`: its payload on the
    four input blocks of that point. -/
def yblk (c : Dev nD) (t : Fin cfg0.N) : Vec Ideal S2000x128 .f32 :=
  k0_pay2 (F := Ideal) (iblk0 V c 0 t) (iblk0 V c 1 t) (iblk0 V c 2 t) (iblk0 V c 3 t)

/-- One accumulation step of the two statistics rows: row 0 gains the block's column sums, row 1 the column sums of
    its squares. -/
def step (acc : Vec Ideal S2x128 .f32) (yb : Vec Ideal S2000x128 .f32) : Vec Ideal S2x128 .f32 :=
  fun j => if (j 0).val = 0
    then acc (ix2 (0 : Fin 2) (j 1)) + ∑ r : Fin 2000, yb (ix2 r (j 1))
    else acc (ix2 (1 : Fin 2) (j 1)) + ∑ r : Fin 2000, yb (ix2 r (j 1)) * yb (ix2 r (j 1))

end Cert.KernelIdeal.Linear

end
-- ==== Proof.Region0Body.lean ====
import proofs.«150599_j78005196030507_1_alg».proof.Proof.Gen.KernelIdeal.Frame
import proofs.«150599_j78005196030507_1_alg».proof.Proof.Spec
import proofs.«150599_j78005196030507_1_alg».proof.Proof.Region0Defs
import Idealize.ShloMosaic.Lib.Pipeline.Value
import Idealize.ShloMosaic.Lib.ValueLayout
import Idealize.ShloMosaic.PureOps.Ideal.Laws
set_option maxRecDepth 16384

noncomputable section

namespace Cert.KernelIdeal.Linear

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What each control case leaves in the two output buffers

Both cases store the block `k0_pay2` of the four input blocks over the whole first output, so that buffer reads
back as that block. The statistics buffer `[2, 128]` is written row by row: row 1 last, row 0 before it, and in
the first case the zero block under both. Row `p`, lane `q` of the buffer is therefore lane `q` of the row store
at `p`, whose payload reads the row it updates as it stood before: the zero block in the first case, the buffer's
previous contents in the later ones. -/

section Pieces
variable {F : FTy → Type} [FloatOps F]

private theorem hz2 : (![0, 0] : Fin 2 → Nat) = fun _ => 0 := funext fun a => by fin_cases a <;> rfl
private theorem hz1 : (![0] : Fin 1 → Nat) = fun _ => 0 := funext fun a => by fin_cases a; rfl

/-- First case, first output: the one covering store's payload, on loads of the whole input buffers. -/
private theorem out_A4 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : cond0_0 i) (x0 x1 : Vec F S2000x128 .f32) (x2 : Vec F S128x128 .f32) (x3 : Vec F S128 .f32) :
    out0_A_4 c i a1 h1 a2 h2 a3 h3 a4 h4 a5 h5 a6 h6 hc x0 x1 x2 x3 = k0_pay2 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz2]
  simp only [View.readAt_eq_ld, h1.read_unread, h2.read_unread, h3.read_unread, h4.read_unread,
    View.ld_unit_zero (S := S2000x128) hz2, View.ld_unit_zero (S := S128x128) hz2, View.ld_unit_zero (S := S128) hz1]

/-- Later cases, first output: the same covering store. -/
private theorem out_B4 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : ¬cond0_0 i) (x0 x1 : Vec F S2000x128 .f32) (x2 : Vec F S128x128 .f32) (x3 : Vec F S128 .f32) (xo : Vec F S2x128 .f32) :
    out0_B_4 c i a1 h1 a2 h2 a3 h3 a4 h4 a5 h5 a6 h6 hc x0 x1 x2 x3 xo = k0_pay2 x0 x1 x2 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz2]
  simp only [View.readAt_eq_ld, h1.read_unread, h2.read_unread, h3.read_unread, h4.read_unread,
    View.ld_unit_zero (S := S2000x128) hz2, View.ld_unit_zero (S := S128x128) hz2, View.ld_unit_zero (S := S128) hz1]

/-- Row 0 of the statistics buffer as a rectangle of it: one row from offset (0, 0). -/
private abbrev R0 : Rect S2x128 := Rect.unit (s := S2x128) ![0, 0] S1x128.size inb_S2x128_S1x128_0_0
/-- Row 1 of the statistics buffer as a rectangle of it: one row from offset (1, 0). -/
private abbrev R1 : Rect S2x128 := Rect.unit (s := S2x128) ![1, 0] S1x128.size inb_S2x128_S1x128_1_0

/-- Lane `q` of the row rectangle at 0 sits at (0, q) of the buffer. -/
private theorem row0_emb (q : Fin 128) : R0.emb (ix2 (0 : Fin 1) q) = ix2 (0 : Fin 2) q := by
  funext a
  apply Fin.ext
  match a with
  | ⟨0, _⟩ => rfl
  | ⟨1, _⟩ => show 0 + 1 * q.val = q.val; omega

/-- Lane `q` of the row rectangle at 1 sits at (1, q) of the buffer. -/
private theorem row1_emb (q : Fin 128) : R1.emb (ix2 (0 : Fin 1) q) = ix2 (1 : Fin 2) q := by
  funext a
  apply Fin.ext
  match a with
  | ⟨0, _⟩ => rfl
  | ⟨1, _⟩ => show 0 + 1 * q.val = q.val; omega

/-- An index of row 0 is outside the row rectangle at 1: its first coordinate is below that rectangle's offset. -/
private theorem row0_not_mem_R1 (q : Fin 128) : ix2 (0 : Fin 2) q ∉ R1.set := fun h =>
  Nat.not_succ_le_zero 0 (Rect.mem_set_unit.mp h 0).1

/-- Stores ending with row 0 then row 1 read, at (0, q), the row-0 store's payload at lane `q`: the last store
    misses the index and the one before it holds it. -/
private theorem canon_row0 (w1 : R1.shape.Idx → Elt F .f32) (w0 : R0.shape.Idx → Elt F .f32)
    (L : List (View.Piece (Elt F) S2x128 .f32)) (q : Fin 128) :
    View.canon ((⟨R1, w1⟩ : View.Piece (Elt F) S2x128 .f32) :: (⟨R0, w0⟩ : View.Piece (Elt F) S2x128 .f32) :: L)
        (ix2 (0 : Fin 2) q) = w0 (ix2 (0 : Fin 1) q) := by
  have hn := row0_not_mem_R1 q
  have e1 := View.canon_cons_of_not_mem (Val := Elt F) (⟨R1, w1⟩ : View.Piece (Elt F) S2x128 .f32)
    ((⟨R0, w0⟩ : View.Piece (Elt F) S2x128 .f32) :: L) hn
  have e2 := View.canon_cons_emb (Val := Elt F) R0 w0 L (ix2 (0 : Fin 1) q)
  rw [row0_emb q] at e2
  exact e1.trans e2

/-- Stores ending with row 1 read, at (1, q), that store's payload at lane `q`. -/
private theorem canon_row1 (w1 : R1.shape.Idx → Elt F .f32) (L : List (View.Piece (Elt F) S2x128 .f32)) (q : Fin 128) :
    View.canon ((⟨R1, w1⟩ : View.Piece (Elt F) S2x128 .f32) :: L) (ix2 (1 : Fin 2) q) = w1 (ix2 (0 : Fin 1) q) := by
  have e2 := View.canon_cons_emb (Val := Elt F) R1 w1 L (ix2 (0 : Fin 1) q)
  rw [row1_emb q] at e2
  exact e2

/-- First case, statistics row 0: the row-0 payload over a row of zeros (the row it loads is a row of the zero block
    stored just before, every entry of which is the float zero). -/
private theorem out_A5_row0 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : cond0_0 i) (x0 x1 : Vec F S2000x128 .f32) (x2 : Vec F S128x128 .f32) (x3 : Vec F S128 .f32) (q : Fin 128) :
    out0_A_5 c i a1 h1 a2 h2 a3 h3 a4 h4 a5 h5 a6 h6 hc x0 x1 x2 x3 (ix2 (0 : Fin 2) q)
      = k0_pay3 x0 x1 x2 x3 (fun _ => Scalar.ofBits .f32 0x00000000#32) (ix2 (0 : Fin 1) q) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S2000x128) hz2, View.ld_unit_zero (S := S128x128) hz2, View.ld_unit_zero (S := S128) hz1, View.readCov_eq_canon', View.canon_unit_zero (S := S2x128) hz2]
  exact canon_row0 _ _ _ q

/-- First case, statistics row 1: the row-1 payload over a row of zeros. -/
private theorem out_A5_row1 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : cond0_0 i) (x0 x1 : Vec F S2000x128 .f32) (x2 : Vec F S128x128 .f32) (x3 : Vec F S128 .f32) (q : Fin 128) :
    out0_A_5 c i a1 h1 a2 h2 a3 h3 a4 h4 a5 h5 a6 h6 hc x0 x1 x2 x3 (ix2 (1 : Fin 2) q)
      = k0_pay4 x0 x1 x2 x3 (fun _ => Scalar.ofBits .f32 0x00000000#32) (ix2 (0 : Fin 1) q) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S2000x128) hz2, View.ld_unit_zero (S := S128x128) hz2, View.ld_unit_zero (S := S128) hz1, View.readCov_eq_canon', View.canon_unit_zero (S := S2x128) hz2]
  exact canon_row1 _ _ q

/-- Later cases, statistics row 0: the row-0 payload over row 0 of the buffer's previous contents `xo`. -/
private theorem out_B5_row0 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : ¬cond0_0 i) (x0 x1 : Vec F S2000x128 .f32) (x2 : Vec F S128x128 .f32) (x3 : Vec F S128 .f32) (xo : Vec F S2x128 .f32) (q : Fin 128) :
    out0_B_5 c i a1 h1 a2 h2 a3 h3 a4 h4 a5 h5 a6 h6 hc x0 x1 x2 x3 xo (ix2 (0 : Fin 2) q)
      = k0_pay3 x0 x1 x2 x3 (View.ld xo R0) (ix2 (0 : Fin 1) q) := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  simp only [View.readAt_eq_ld, h1.read_unread, h2.read_unread, h3.read_unread, h4.read_unread,
    View.ld_unit_zero (S := S2000x128) hz2, View.ld_unit_zero (S := S128x128) hz2, View.ld_unit_zero (S := S128) hz1, h6.read_unread]
  exact canon_row0 _ _ _ q

/-- Later cases, statistics row 1: the row-1 payload over row 1 of the previous contents. -/
private theorem out_B5_row1 (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128 .f32) (h4 : a4.IsWhole) (a5 : Memref sig .tc .vmem S2000x128 .f32) (h5 : a5.IsWhole) (a6 : Memref sig .tc .vmem S2x128 .f32) (h6 : a6.IsWhole) (hc : ¬cond0_0 i) (x0 x1 : Vec F S2000x128 .f32) (x2 : Vec F S128x128 .f32) (x3 : Vec F S128 .f32) (xo : Vec F S2x128 .f32) (q : Fin 128) :
    out0_B_5 c i a1 h1 a2 h2 a3 h3 a4 h4 a5 h5 a6 h6 hc x0 x1 x2 x3 xo (ix2 (1 : Fin 2) q)
      = k0_pay4 x0 x1 x2 x3 (View.ld xo R1) (ix2 (0 : Fin 1) q) := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  simp only [View.readAt_eq_ld, h1.read_unread, h2.read_unread, h3.read_unread, h4.read_unread,
    View.ld_unit_zero (S := S2000x128) hz2, View.ld_unit_zero (S := S128x128) hz2, View.ld_unit_zero (S := S128) hz1, h6.read_unread]
  exact canon_row1 _ _ q

end Pieces

/-! ## The two row payloads over the extended reals

Each casts the loaded row `[1, 128]` to `[128]`, adds the sum over the 2000 rows of the block (row 0) or of its
entrywise square (row 1), and casts back: at lane `q` the loaded entry plus `∑ r, y (r, q)`, respectively
`∑ r, y (r, q) · y (r, q)`. -/

/-- The source index the reduction over axis 0 visits at lane `q` and row `r` is (r, q). -/
private theorem lift_row (q : Fin 128) (r : Fin 2000) :
    reduces_S2000x128_S128.lift (ix1 q) r = ix2 r q := by
  funext a
  apply Fin.ext
  match a with
  | ⟨0, _⟩ => rfl
  | ⟨1, _⟩ => rfl

/-- The row-0 payload at lane `q`: the loaded entry plus the block's column sum. -/
private theorem pay3_apply (x0 x1 : Vec Ideal S2000x128 .f32) (x2 : Vec Ideal S128x128 .f32) (x3 : Vec Ideal S128 .f32) (v : Vec Ideal S1x128 .f32) (q : Fin 128) :
    k0_pay3 (F := Ideal) x0 x1 x2 x3 v (ix2 (0 : Fin 1) q)
      = v (ix2 (0 : Fin 1) q) + ∑ r : Fin 2000, k0_pay2 (F := Ideal) x0 x1 x2 x3 (ix2 r q) := by
  unfold k0_pay3
  refine (shapeCast_a_1a_apply _ shapeCasts_S128_S1x128 (0 : Fin 1) q).trans ?_
  refine (addf_apply _ _ (ix1 q)).trans ?_
  refine congrArg₂ (· + ·) (shapeCast_1a_a_apply v shapeCasts_S1x128_S128 q) ?_
  refine (Ideal.multiReduction_add_single (k0_pay2 (F := Ideal) x0 x1 x2 x3) _ reduces_S2000x128_S128 _ _ (ix1 q)).trans ?_
  exact Finset.sum_congr rfl fun r _ => congrArg (k0_pay2 (F := Ideal) x0 x1 x2 x3) (lift_row q r)

/-- The row-1 payload at lane `q`: the loaded entry plus the column sum of the block's squares. -/
private theorem pay4_apply (x0 x1 : Vec Ideal S2000x128 .f32) (x2 : Vec Ideal S128x128 .f32) (x3 : Vec Ideal S128 .f32) (v : Vec Ideal S1x128 .f32) (q : Fin 128) :
    k0_pay4 (F := Ideal) x0 x1 x2 x3 v (ix2 (0 : Fin 1) q)
      = v (ix2 (0 : Fin 1) q)
        + ∑ r : Fin 2000, k0_pay2 (F := Ideal) x0 x1 x2 x3 (ix2 r q) * k0_pay2 (F := Ideal) x0 x1 x2 x3 (ix2 r q) := by
  unfold k0_pay4
  refine (shapeCast_a_1a_apply _ shapeCasts_S128_S1x128 (0 : Fin 1) q).trans ?_
  refine (addf_apply _ _ (ix1 q)).trans ?_
  refine congrArg₂ (· + ·) (shapeCast_1a_a_apply v shapeCasts_S1x128_S128 q) ?_
  refine (Ideal.multiReduction_add_single
    (mulf (k0_pay2 (F := Ideal) x0 x1 x2 x3) (k0_pay2 (F := Ideal) x0 x1 x2 x3)) _ reduces_S2000x128_S128 _ _ (ix1 q)).trans ?_
  exact Finset.sum_congr rfl fun r _ =>
    (congrArg (mulf (k0_pay2 (F := Ideal) x0 x1 x2 x3) (k0_pay2 (F := Ideal) x0 x1 x2 x3)) (lift_row q r)).trans
      (mulf_apply _ _ (ix2 r q))

/-- The accumulation step read at row 0. -/
private theorem step_row0 (acc : Vec Ideal S2x128 .f32) (yb : Vec Ideal S2000x128 .f32) (q : Fin 128) :
    step acc yb (ix2 (0 : Fin 2) q) = acc (ix2 (0 : Fin 2) q) + ∑ r : Fin 2000, yb (ix2 r q) := by
  unfold step
  exact if_pos rfl

/-- The accumulation step read at row 1. -/
private theorem step_row1 (acc : Vec Ideal S2x128 .f32) (yb : Vec Ideal S2000x128 .f32) (q : Fin 128) :
    step acc yb (ix2 (1 : Fin 2) q)
      = acc (ix2 (1 : Fin 2) q) + ∑ r : Fin 2000, yb (ix2 r q) * yb (ix2 r q) := by
  unfold step
  exact if_neg Nat.one_ne_zero

/-! ## The outputs after a grid point

A point whose index is a multiple of 25 runs the first case, every other point the later one; in both the first
output is the point's block, and the statistics buffer is the step of what it held (zeros at the first point, the
previous point's result afterwards), read row by row. -/

/-- At every grid point the first output's buffer is left holding that point's block of the linear layer. -/
theorem outs_fst (c : Dev nD) (t : Fin cfg0.N) : (outsAt0 (F := Ideal) V c t.val t.isLt).1 = yblk V c t := by
  by_cases h0 : t.val % 25 = 0
  · rw [outsAt0_A V c t h0]
    dsimp only
    exact out_A4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)
  · rw [outsAt0_B V c t h0]
    dsimp only
    exact out_B4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t)
      (outsAt0 (F := Ideal) V c (t.val - 1) (Nat.lt_of_le_of_lt (Nat.sub_le _ _) t.isLt)).2

/-- At the first point the statistics buffer is reset to zero and then stepped with the point's block. -/
theorem outs_snd_first (c : Dev nD) (t : Fin cfg0.N) (h0 : t.val % 25 = 0) :
    (outsAt0 (F := Ideal) V c t.val t.isLt).2 = step (fun _ => (0 : EReal)) (yblk V c t) := by
  rw [outsAt0_A V c t h0]
  dsimp only
  funext j
  obtain ⟨p, q, rfl⟩ : ∃ (p : Fin 2) (q : Fin 128), j = ix2 p q := ⟨j 0, j 1, eq_ix2 j⟩
  revert p
  refine Fin.forall_fin_two.mpr ⟨?_, ?_⟩
  · refine (out_A5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) q).trans ?_
    refine (pay3_apply (iblk0 V c 0 t) (iblk0 V c 1 t) (iblk0 V c 2 t) (iblk0 V c 3 t) (fun _ => (Scalar.ofBits .f32 0x00000000#32 : Ideal .f32)) q).trans ?_
    refine Eq.trans ?_ (step_row0 (fun _ => (0 : EReal)) (yblk V c t) q).symm
    exact congrArg₂ (· + ·) Ideal.ofBits_zero_f32 rfl
  · refine (out_A5_row1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t) q).trans ?_
    refine (pay4_apply (iblk0 V c 0 t) (iblk0 V c 1 t) (iblk0 V c 2 t) (iblk0 V c 3 t) (fun _ => (Scalar.ofBits .f32 0x00000000#32 : Ideal .f32)) q).trans ?_
    refine Eq.trans ?_ (step_row1 (fun _ => (0 : EReal)) (yblk V c t) q).symm
    exact congrArg₂ (· + ·) Ideal.ofBits_zero_f32 rfl

/-- At every later point it is what the point before left, stepped with the point's block. -/
theorem outs_snd_next (c : Dev nD) (t : Fin cfg0.N) (h0 : ¬t.val % 25 = 0) :
    (outsAt0 (F := Ideal) V c t.val t.isLt).2
      = step (outsAt0 (F := Ideal) V c (t.val - 1) (Nat.lt_of_le_of_lt (Nat.sub_le _ _) t.isLt)).2 (yblk V c t) := by
  rw [outsAt0_B V c t h0]
  dsimp only
  generalize (outsAt0 (F := Ideal) V c (t.val - 1) (Nat.lt_of_le_of_lt (Nat.sub_le _ _) t.isLt)).2 = xo
  funext j
  obtain ⟨p, q, rfl⟩ : ∃ (p : Fin 2) (q : Fin 128), j = ix2 p q := ⟨j 0, j 1, eq_ix2 j⟩
  revert p
  refine Fin.forall_fin_two.mpr ⟨?_, ?_⟩
  · refine (out_B5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) xo q).trans ?_
    refine (pay3_apply (iblk0 V c 0 t) (iblk0 V c 1 t) (iblk0 V c 2 t) (iblk0 V c 3 t) (View.ld xo R0) q).trans ?_
    refine Eq.trans ?_ (step_row0 xo (yblk V c t) q).symm
    exact congrArg₂ (· + ·) (congrArg xo (row0_emb q)) rfl
  · refine (out_B5_row1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) xo q).trans ?_
    refine (pay4_apply (iblk0 V c 0 t) (iblk0 V c 1 t) (iblk0 V c 2 t) (iblk0 V c 3 t) (View.ld xo R1) q).trans ?_
    refine Eq.trans ?_ (step_row1 xo (yblk V c t) q).symm
    exact congrArg₂ (· + ·) (congrArg xo (row1_emb q)) rfl

end Cert.KernelIdeal.Linear

end
-- ==== Proof.Region0Entry.lean ====
import proofs.«150599_j78005196030507_1_alg».proof.Proof.Gen.KernelIdeal.Frame
import proofs.«150599_j78005196030507_1_alg».proof.Proof.Spec
import proofs.«150599_j78005196030507_1_alg».proof.Proof.Region0Defs
import Idealize.ShloMosaic.Lib.Pipeline.Value
import Idealize.ShloMosaic.Lib.ValueLayout
import Idealize.ShloMosaic.PureOps.Ideal.Laws
set_option maxRecDepth 16384

noncomputable section

namespace Cert.KernelIdeal.Linear

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

/-! ## The body's product: which entries of its operands an entry of the result contracts -/

/-- Along the rows the left operand is read at the result's row. -/
private theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Along the columns the left operand is read at the contraction position. -/
private theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- Along the rows the right operand is read at the contraction position. -/
private theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Along the columns the right operand is read at the result's column. -/
private theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product from a zero accumulator, entry `(r, o)`: row `r` of the left operand against column `o` of the right. -/
private theorem mm_apply (l : FVec Ideal S2000x128 .bf16) (w : FVec Ideal S128x128 .bf16) (r : Fin 2000) (o : Fin 128) :
    matmul dot_S2000x128_S128x128_S2000x128_1_0_0_1_n_n none l w (constant (F := Ideal) S2000x128 .f32 0x00000000#32) (ix2 r o)
      = ∑ d : Fin 128, l (ix2 r d) * w (ix2 d o) := by
  refine (Ideal.matmul_constant_zero_apply dot_S2000x128_S128x128_S2000x128_1_0_0_1_n_n none l w (ix2 r o)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r o) ((contrEquiv1 dot_S2000x128_S128x128_S2000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S2000x128_S128x128_S2000x128_1_0_0_1_n_n.rhsIdx (ix2 r o) ((contrEquiv1 dot_S2000x128_S128x128_S2000x128_1_0_0_1_n_n 128 rfl rfl).symm k) = ix2 k o := funext fun a => Fin.ext (by
    match a with
    | ⟨0, _⟩ => exact (rhs_mm_0 _ _).trans hk
    | ⟨1, _⟩ => exact rhs_mm_1 _ _)
  rw [el, er]

/-! ## The body's payload at an index -/

/-- Entry `(r, o)` of the body's value on any four blocks: row `r` of the sum of the first two, contracted with row `o`
    of the third (the body transposes it before the product, and entry `(d, o)` of the transpose is entry `(o, d)`),
    plus entry `o` of the fourth (cast to one row and repeated over the rows). The format changes are the identity on
    the extended reals. -/
private theorem pay2_apply (v3 v4 : Vec Ideal S2000x128 .f32) (v8 : Vec Ideal S128x128 .f32) (v12 : Vec Ideal S128 .f32)
    (r : Fin 2000) (o : Fin 128) :
    k0_pay2 (F := Ideal) v3 v4 v8 v12 (ix2 r o)
      = (∑ d : Fin 128, (v3 (ix2 r d) + v4 (ix2 r d)) * v8 (ix2 o d)) + v12 (ix1 o) := by
  unfold k0_pay2
  refine (addf_apply _ _ (ix2 r o)).trans ?_
  refine congrArg₂ (· + ·) ?_ ?_
  · refine (mm_apply _ _ r o).trans ?_
    refine Finset.sum_congr rfl fun d _ => ?_
    rw [transpose_ix2_apply, shapeCast_self]
    rfl
  · refine (broadcastTo_1b_ab_apply _ _ r o).trans ?_
    exact shapeCast_a_1a_apply v12 _ 0 o

variable (V : (c : Dev nD) → (b : Ref sig .tc) → Buf (Elt Ideal) ((c : Thread nD τ).loc b))

/-! ## The four input blocks at a point, as entries of their arrays

A block's coordinate along an axis is the window's block index there times the block's extent plus the coordinate
inside the block. The first two windows step along the rows with the point and sit at column block 0; the last two sit
at block 0 at every point, and their block is the whole array. -/

/-- Where the four input windows sit at each point, decided over the grid. -/
private theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0 :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0)

/-- Row `r` of the first operand's block at point `t` is row `2000·t + r` of the array. -/
private theorem iblk0_0_apply (c : Dev nD) (t : Fin cfg0.N) (r : Fin 2000) (d : Fin 128) (hn : 2000 * t.val + r.val < 50000) :
    (iblk0 V c 0 t : Vec Ideal S2000x128 .f32) (ix2 r d)
      = (V c main_arg0 : S50000x128.Idx → EReal) (ix2 ⟨2000 * t.val + r.val, hn⟩ d) := by
  have hi := (index_facts t).1
  unfold iblk0
  rw [View.read_apply]
  show V c main_arg0 (((cfg0.win 0).blk t).view.emb (ix2 r d)) = V c main_arg0 (ix2 ⟨2000 * t.val + r.val, hn⟩ d)
  congr 1
  funext a
  apply Fin.ext
  match a with
  | ⟨0, _⟩ => show win0_0.index t 0 * 2000 + 1 * r.val = 2000 * t.val + r.val; rw [hi.1]; omega
  | ⟨1, _⟩ => show win0_0.index t 1 * 128 + 1 * d.val = d.val; rw [hi.2]; omega

/-- Row `r` of the second operand's block at point `t` is row `2000·t + r` of the array. -/
private theorem iblk0_1_apply (c : Dev nD) (t : Fin cfg0.N) (r : Fin 2000) (d : Fin 128) (hn : 2000 * t.val + r.val < 50000) :
    (iblk0 V c 1 t : Vec Ideal S2000x128 .f32) (ix2 r d)
      = (V c main_v28 : S50000x128.Idx → EReal) (ix2 ⟨2000 * t.val + r.val, hn⟩ d) := by
  have hi := (index_facts t).2.1
  unfold iblk0
  rw [View.read_apply]
  show V c main_v28 (((cfg0.win 1).blk t).view.emb (ix2 r d)) = V c main_v28 (ix2 ⟨2000 * t.val + r.val, hn⟩ d)
  congr 1
  funext a
  apply Fin.ext
  match a with
  | ⟨0, _⟩ => show win0_1.index t 0 * 2000 + 1 * r.val = 2000 * t.val + r.val; rw [hi.1]; omega
  | ⟨1, _⟩ => show win0_1.index t 1 * 128 + 1 * d.val = d.val; rw [hi.2]; omega

/-- The weight block at every point is the whole weight matrix. -/
private theorem iblk0_2_apply (c : Dev nD) (t : Fin cfg0.N) (o d : Fin 128) :
    (iblk0 V c 2 t : Vec Ideal S128x128 .f32) (ix2 o d) = (V c main_arg2 : S128x128.Idx → EReal) (ix2 o d) := by
  have hi := (index_facts t).2.2.1
  unfold iblk0
  rw [View.read_apply]
  show V c main_arg2 (((cfg0.win 2).blk t).view.emb (ix2 o d)) = V c main_arg2 (ix2 o d)
  congr 1
  funext a
  apply Fin.ext
  match a with
  | ⟨0, _⟩ => show win0_2.index t 0 * 128 + 1 * o.val = o.val; rw [hi.1]; omega
  | ⟨1, _⟩ => show win0_2.index t 1 * 128 + 1 * d.val = d.val; rw [hi.2]; omega

/-- The bias block at every point is the whole bias. -/
private theorem iblk0_3_apply (c : Dev nD) (t : Fin cfg0.N) (o : Fin 128) :
    (iblk0 V c 3 t : Vec Ideal S128 .f32) (ix1 o) = (V c main_arg3 : S128.Idx → EReal) (ix1 o) := by
  have hi := (index_facts t).2.2.2
  unfold iblk0
  rw [View.read_apply]
  show V c main_arg3 (((cfg0.win 3).blk t).view.emb (ix1 o)) = V c main_arg3 (ix1 o)
  congr 1
  funext a
  apply Fin.ext
  match a with
  | ⟨0, _⟩ => show win0_3.index t 0 * 128 + 1 * o.val = o.val; rw [hi]; omega

/-! ## The block of the linear layer at a point -/

/-- Row `r`, feature `o` of the block at point `t` is the linear layer at node `2000·t + r`: the point's blocks of the
    first two operands are rows `2000·t … 2000·t + 1999` of their arrays, the weight and bias blocks are the whole
    arrays, and the body contracts `x + A` with the transposed weights and adds the bias. -/
theorem yblk_apply (c : Dev nD) (t : Fin cfg0.N) (r : Fin 2000) (o : Fin 128) (hn : 2000 * t.val + r.val < 50000) :
    yblk V c t (ix2 r o)
      = lin (V c main_arg0) (V c main_v28) (V c main_arg2) (V c main_arg3) ⟨2000 * t.val + r.val, hn⟩ o := by
  unfold yblk lin
  refine (pay2_apply _ _ _ _ r o).trans ?_
  refine congrArg₂ (· + ·) (Finset.sum_congr rfl fun d _ => ?_) (iblk0_3_apply V c t o)
  rw [iblk0_0_apply V c t r d hn, iblk0_1_apply V c t r d hn, iblk0_2_apply V c t o d]

end Cert.KernelIdeal.Linear

end
-- ==== Proof.Region0.lean ====
import proofs.«150599_j78005196030507_1_alg».proof.Proof.Gen.KernelIdeal.Frame
import proofs.«150599_j78005196030507_1_alg».proof.Proof.Spec
import proofs.«150599_j78005196030507_1_alg».proof.Proof.Region0Body
import proofs.«150599_j78005196030507_1_alg».proof.Proof.Region0Entry
import Idealize.ShloMosaic.Lib.Pipeline.Value
import Idealize.ShloMosaic.Lib.ValueLayout
import Idealize.ShloMosaic.PureOps.Ideal.Laws
import Mathlib.Algebra.BigOperators.Fin
import Mathlib.Algebra.BigOperators.Intervals
set_option maxRecDepth 16384

noncomputable section

namespace Cert.KernelIdeal.Linear

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Sums over the nodes, regrouped into consecutive blocks of rows -/

/-- A sum over `n` consecutive blocks of `K` consecutive naturals is the sum over the first `K * n` naturals. -/
private theorem sum_blocks {M : Type*} [AddCommMonoid M] (f : ℕ → M) (K : ℕ) :
    ∀ n : ℕ, ∑ s ∈ Finset.range n, ∑ r : Fin K, f (K * s + r.val) = ∑ m ∈ Finset.range (K * n), f m
  | 0 => by rw [Finset.sum_range_zero, Nat.mul_zero, Finset.sum_range_zero]
  | n + 1 => by
    rw [Finset.sum_range_succ, sum_blocks f K n, Nat.mul_succ, Finset.sum_range_add,
      Fin.sum_univ_eq_sum_range (fun r => f (K * n + r)) K]

/-- A node-indexed column extended by zero past the last node, so that a row can be named by a bare natural. -/
private def ext0 (y : Fin 50000 → Fin 128 → EReal) (m : ℕ) (o : Fin 128) : EReal :=
  if h : m < 50000 then y ⟨m, h⟩ o else 0

/-- Any function of the column's entries, summed over the 25 blocks of 2000 rows, is its sum over all nodes. -/
private theorem sum_rows (y : Fin 50000 → Fin 128 → EReal) (g : EReal → EReal) (o : Fin 128) :
    ∑ s ∈ Finset.range 25, ∑ r : Fin 2000, g (ext0 y (2000 * s + r.val) o) = ∑ n : Fin 50000, g (y n o) := by
  rw [sum_blocks (fun m => g (ext0 y m o)) 2000 25, show (2000 * 25 : ℕ) = 50000 from rfl,
    ← Fin.sum_univ_eq_sum_range (fun m => g (ext0 y m o)) 50000]
  exact Finset.sum_congr rfl fun n _ => congrArg g (dif_pos n.isLt)

/-! ## The first output: every point writes back its block of the linear layer, and the blocks tile the array -/

/-- The linear layer of `x + A` at the region's entry contents, as a node-by-feature table. -/
private abbrev linV (c : Dev nD) : Fin 50000 → Fin 128 → EReal :=
  lin (V c main_arg0) (V c main_v28) (V c main_arg2) (V c main_arg3)

/-- The grid has 25 points. -/
private theorem lt25 (t : Fin cfg0.N) : t.val < 25 := by
  have h : cfg0.N = 25 := N_0
  have := t.isLt
  omega

/-- The first output's block at point `t` is block `(t, 0)` of its array. -/
private theorem index_y : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- What point `t` writes back to the first output is block `t` of the linear layer: row `r` of the block is node
    `2000·t + r`. -/
private theorem flushed_y (c : Dev nD) (t : Fin cfg0.N) :
    (dat0 (F := Ideal) V c).flushed 4 t
      = ((cfg0.win 4).blk t).view.read (Elt Ideal) (fun i => linV V c (i 0) (i 1)) := by
  show (cfg0.win 4).cut (grid0.coords t) ((dat0 (F := Ideal) V c).after 4 t) = _
  rw [after0_4, outs_fst]
  funext j
  obtain ⟨r, o, rfl⟩ : ∃ (r : Fin 2000) (o : Fin 128), j = ix2 r o := ⟨j 0, j 1, eq_ix2 j⟩
  obtain ⟨e0, e1⟩ := index_y t
  have ht := lt25 t
  have hn : 2000 * t.val + r.val < 50000 := by have := r.isLt; omega
  rw [View.read_apply]
  show yblk V c t (ix2 r o) = linV V c ((((cfg0.win 4).blk t).view.emb (ix2 r o)) 0) ((((cfg0.win 4).blk t).view.emb (ix2 r o)) 1)
  rw [yblk_apply V c t r o hn]
  congr 1
  · apply Fin.ext
    show 2000 * t.val + r.val = win0_4.index t (0 : Fin 2) * 2000 + 1 * r.val
    omega
  · apply Fin.ext
    show o.val = win0_4.index t (1 : Fin 2) * 128 + 1 * o.val
    omega

/-- An index of the first output's array is in point `t`'s block iff each coordinate is in the block's range. -/
private theorem mem_blk_y (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v29_0).slice (win0_4.rect t)).set ↔ _
  rw [View.set_slice_whole, Rect.mem_set_unit]
  exact Iff.rfl

/-- Node `n` lies in the block of point `n / 2000`, and every point writes back. -/
private theorem cover_y (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  let t : Fin cfg0.N := ⟨(i 0).val / 2000, by omega⟩
  obtain ⟨e0, e1⟩ := index_y t
  have et : t.val = (i 0).val / 2000 := rfl
  refine ⟨t, flush0_4 t, ?_⟩
  rw [mem_blk_y]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- After the first kernel's grid, its first output array holds the linear layer of `x + A`. -/
theorem final_y (c : Dev nD) :
    (dat0 (F := Ideal) V c).arrAt 4 cfg0.N
      = fun i => lin (V c main_arg0) (V c main_v28) (V c main_arg2) (V c main_arg3) (i 0) (i 1) :=
  (dat0 (F := Ideal) V c).arrAt_eq_of_cover 4 _ (fun t _ => flushed_y V c t) cover_y

/-! ## The second output: the statistics rows accumulate over the grid and are written back once, at the last point -/

/-- Row 0 of a step gains the block's column sums. -/
private theorem step_row0 (acc : Vec Ideal S2x128 .f32) (yb : Vec Ideal S2000x128 .f32) (o : Fin 128) :
    step acc yb (ix2 (0 : Fin 2) o) = acc (ix2 (0 : Fin 2) o) + ∑ r : Fin 2000, yb (ix2 r o) := by
  unfold step
  exact if_pos rfl

/-- Row 1 of a step gains the column sums of the block's squares. -/
private theorem step_row1 (acc : Vec Ideal S2x128 .f32) (yb : Vec Ideal S2000x128 .f32) (o : Fin 128) :
    step acc yb (ix2 (1 : Fin 2) o) = acc (ix2 (1 : Fin 2) o) + ∑ r : Fin 2000, yb (ix2 r o) * yb (ix2 r o) := by
  unfold step
  exact if_neg (show ¬((1 : Fin 2).val = 0) by decide)

/-- Row 0 of the statistics array is the column sums. -/
private theorem statsArr_row0 (y : Fin 50000 → Fin 128 → EReal) (o : Fin 128) :
    statsArr y (ix2 (0 : Fin 2) o) = colSum y o := by
  unfold statsArr
  exact if_pos rfl

/-- Row 1 of the statistics array is the column sums of squares. -/
private theorem statsArr_row1 (y : Fin 50000 → Fin 128 → EReal) (o : Fin 128) :
    statsArr y (ix2 (1 : Fin 2) o) = colSumSq y o := by
  unfold statsArr
  exact if_neg (show ¬((1 : Fin 2).val = 0) by decide)

/-- Row `r` of the block at point `t` is the zero-extended linear layer at the natural `2000·t + r`. -/
private theorem yblk_ext (c : Dev nD) (t : Fin cfg0.N) (r : Fin 2000) (o : Fin 128) :
    yblk V c t (ix2 r o) = ext0 (linV V c) (2000 * t.val + r.val) o := by
  have ht := lt25 t
  have hn : 2000 * t.val + r.val < 50000 := by have := r.isLt; omega
  rw [yblk_apply V c t r o hn]
  unfold ext0
  rw [dif_pos hn]

/-- After point `n` the statistics buffer holds, in row 0, the column sums of the first `n + 1` blocks of the linear
    layer, and in row 1 the column sums of their squares: at point 0 the buffer is reset and stepped once, and every later
    point steps what the point before left. -/
private theorem stats_upto (c : Dev nD) : ∀ (n : ℕ) (hn : n < cfg0.N) (o : Fin 128),
    (outsAt0 (F := Ideal) V c n hn).2 (ix2 (0 : Fin 2) o)
        = ∑ s ∈ Finset.range (n + 1), ∑ r : Fin 2000, ext0 (linV V c) (2000 * s + r.val) o
      ∧ (outsAt0 (F := Ideal) V c n hn).2 (ix2 (1 : Fin 2) o)
        = ∑ s ∈ Finset.range (n + 1), ∑ r : Fin 2000,
            ext0 (linV V c) (2000 * s + r.val) o * ext0 (linV V c) (2000 * s + r.val) o
  | 0, hn, o => by
    have e : (outsAt0 (F := Ideal) V c 0 hn).2 = step (fun _ => (0 : EReal)) (yblk V c ⟨0, hn⟩) :=
      outs_snd_first V c ⟨0, hn⟩ (Nat.zero_mod 25)
    constructor
    · rw [e, step_row0, Finset.sum_range_succ, Finset.sum_range_zero]
      exact congrArg₂ (· + ·) rfl (Finset.sum_congr rfl fun r _ => yblk_ext V c ⟨0, hn⟩ r o)
    · rw [e, step_row1, Finset.sum_range_succ, Finset.sum_range_zero]
      exact congrArg₂ (· + ·) rfl (Finset.sum_congr rfl fun r _ => by rw [yblk_ext V c ⟨0, hn⟩ r o])
  | n + 1, hn, o => by
    have h25 : n + 1 < 25 := lt25 ⟨n + 1, hn⟩
    have hne : ¬(n + 1) % 25 = 0 := by omega
    have e : (outsAt0 (F := Ideal) V c (n + 1) hn).2
        = step (outsAt0 (F := Ideal) V c n (Nat.lt_of_succ_lt hn)).2 (yblk V c ⟨n + 1, hn⟩) :=
      outs_snd_next V c ⟨n + 1, hn⟩ hne
    obtain ⟨ih0, ih1⟩ := stats_upto c n (Nat.lt_of_succ_lt hn) o
    constructor
    · rw [e, step_row0, Finset.sum_range_succ _ (n + 1)]
      exact congrArg₂ (· + ·) ih0 (Finset.sum_congr rfl fun r _ => yblk_ext V c ⟨n + 1, hn⟩ r o)
    · rw [e, step_row1, Finset.sum_range_succ _ (n + 1)]
      exact congrArg₂ (· + ·) ih1 (Finset.sum_congr rfl fun r _ => by rw [yblk_ext V c ⟨n + 1, hn⟩ r o])

/-- After the last point the statistics buffer holds the two rows of column statistics over all nodes. -/
private theorem stats_last (c : Dev nD) (hn : 24 < cfg0.N) :
    (outsAt0 (F := Ideal) V c 24 hn).2 = statsArr (linV V c) := by
  funext j
  obtain ⟨a, o, rfl⟩ : ∃ (a : Fin 2) (o : Fin 128), j = ix2 a o := ⟨j 0, j 1, eq_ix2 j⟩
  obtain ⟨s0, s1⟩ := stats_upto V c 24 hn o
  match a with
  | ⟨0, _⟩ =>
    show (outsAt0 (F := Ideal) V c 24 hn).2 (ix2 (0 : Fin 2) o) = statsArr (linV V c) (ix2 (0 : Fin 2) o)
    rw [s0, statsArr_row0]
    exact sum_rows (linV V c) (fun v => v) o
  | ⟨1, _⟩ =>
    show (outsAt0 (F := Ideal) V c 24 hn).2 (ix2 (1 : Fin 2) o) = statsArr (linV V c) (ix2 (1 : Fin 2) o)
    rw [s1, statsArr_row1]
    exact sum_rows (linV V c) (fun v => v * v) o

/-- The statistics window's block is the whole array at every point: block `(0, 0)`. -/
private theorem index_stats : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The one point that writes the statistics back, the last, writes the column statistics over all nodes. -/
private theorem flushed_stats (c : Dev nD) (t : Fin cfg0.N) (hf : (cfg0.win 5).flush t = true) :
    (dat0 (F := Ideal) V c).flushed 5 t
      = ((cfg0.win 5).blk t).view.read (Elt Ideal) (statsArr (linV V c)) := by
  have ht := lt25 t
  have h24 : t.val = 24 := by have := (flush0_5 t).mp hf; omega
  obtain ⟨e0, e1⟩ := index_stats t
  obtain ⟨n, hn⟩ := t
  have h24' : n = 24 := h24
  subst h24'
  show (cfg0.win 5).cut (grid0.coords ⟨24, hn⟩) ((dat0 (F := Ideal) V c).after 5 ⟨24, hn⟩) = _
  rw [after0_5]
  show (cfg0.win 5).cut (grid0.coords ⟨24, hn⟩) (outsAt0 (F := Ideal) V c 24 hn).2 = _
  rw [stats_last V c hn]
  funext j
  obtain ⟨a, o, rfl⟩ : ∃ (a : Fin 2) (o : Fin 128), j = ix2 a o := ⟨j 0, j 1, eq_ix2 j⟩
  rw [View.read_apply]
  show statsArr (linV V c) (ix2 a o) = statsArr (linV V c) (((cfg0.win 5).blk ⟨24, hn⟩).view.emb (ix2 a o))
  congr 1
  funext b
  apply Fin.ext
  match b with
  | ⟨0, _⟩ =>
    show a.val = win0_5.index ⟨24, hn⟩ (0 : Fin 2) * 2 + 1 * a.val
    omega
  | ⟨1, _⟩ =>
    show o.val = win0_5.index ⟨24, hn⟩ (1 : Fin 2) * 128 + 1 * o.val
    omega

/-- An index of the statistics array is in point `t`'s block iff each coordinate is in the block's range. -/
private theorem mem_blk_stats (t : Fin cfg0.N) (i : S2x128.Idx) :
    i ∈ ((cfg0.win 5).blk t).view.set ↔ ∀ a : Fin 2, win0_5.index t a * S2x128.size a ≤ (i a).val
      ∧ (i a).val < win0_5.index t a * S2x128.size a + S2x128.size a := by
  show i ∈ ((View.whole main_v29_1).slice (win0_5.rect t)).set ↔ _
  rw [View.set_slice_whole, Rect.mem_set_unit]
  exact Iff.rfl

/-- The last point's block is the whole statistics array, and the last point writes back. -/
private theorem cover_stats (i : S2x128.Idx) :
    ∃ t : Fin cfg0.N, (cfg0.win 5).flush t = true ∧ i ∈ ((cfg0.win 5).blk t).view.set := by
  have hi0 : (i 0).val < 2 := (i 0).isLt
  have hi1 : (i 1).val < 128 := (i 1).isLt
  have hN : cfg0.N = 25 := N_0
  let t : Fin cfg0.N := ⟨24, by omega⟩
  obtain ⟨e0, e1⟩ := index_stats t
  refine ⟨t, (flush0_5 t).mpr rfl, ?_⟩
  rw [mem_blk_stats]
  intro a
  match a with
  | ⟨0, _⟩ =>
    show win0_5.index t (0 : Fin 2) * 2 ≤ (i 0).val ∧ (i 0).val < win0_5.index t (0 : Fin 2) * 2 + 2
    omega
  | ⟨1, _⟩ =>
    show win0_5.index t (1 : Fin 2) * 128 ≤ (i 1).val ∧ (i 1).val < win0_5.index t (1 : Fin 2) * 128 + 128
    omega

/-- After the first kernel's grid, its second output array holds the column sums and the column sums of squares of
    the linear layer, over all nodes. -/
theorem final_stats (c : Dev nD) :
    (dat0 (F := Ideal) V c).arrAt 5 cfg0.N
      = statsArr (lin (V c main_arg0) (V c main_v28) (V c main_arg2) (V c main_arg3)) :=
  (dat0 (F := Ideal) V c).arrAt_eq_of_cover 5 _ (flushed_stats V c) cover_stats

end Cert.KernelIdeal.Linear

end
-- ==== Proof.Region1.lean ====
import proofs.«150599_j78005196030507_1_alg».proof.Proof.Gen.KernelIdeal.Frame
import proofs.«150599_j78005196030507_1_alg».proof.Proof.Spec
import Idealize.ShloMosaic.Lib.Pipeline.Value
import Idealize.ShloMosaic.Lib.ValueLayout
import Idealize.ShloMosaic.PureOps.Ideal.Laws
set_option maxRecDepth 16384

noncomputable section

namespace Cert.KernelIdeal.Norm

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one entry of a block -/

/-- A per-feature vector laid out as one row and repeated down the rows of a block reads, at row `r` and
    feature `o`, its entry at `o`. -/
theorem rowRepeat_apply {α : Type} (v : S128.Idx → α) (h1 : S128.ShapeCasts S1x128) (h2 : S1x128.Broadcasts S2000x128)
    (r : Fin 2000) (o : Fin 128) :
    broadcastTo S2000x128 (shapeCast S1x128 v h1) h2 (ix2 r o) = v (ix1 o) := by
  rw [broadcastTo_1b_ab_apply, shapeCast_a_1a_apply]

/-- The stored block at row `r`, feature `o`: the loaded block's entry there, less the first vector's entry at `o`,
    times the second's, times the third's, plus the fourth's, clamped below at zero. -/
theorem pay_apply (x0 : Vec Ideal S2000x128 .f32) (x1 x2 x3 x4 : Vec Ideal S128 .f32) (r : Fin 2000) (o : Fin 128) :
    k1_pay1 (F := Ideal) x0 x1 x2 x3 x4 (ix2 r o)
      = max (((x0 (ix2 r o) - x1 (ix1 o)) * x2 (ix1 o)) * x3 (ix1 o) + x4 (ix1 o)) cZero := by
  unfold k1_pay1
  simp only [maximumf_apply, addf_apply, mulf_apply, subf_apply, broadcast_apply, shapeCast_self, rowRepeat_apply]
  rfl

/-! ## What one grid point writes back -/

/-- The zero offsets of a rank-2 rectangle, as the constant function. -/
theorem zeroOff2 : (![0, 0] : Fin 2 → Nat) = fun _ => 0 := funext fun a => by fin_cases a <;> rfl
/-- The zero offset of a rank-1 rectangle, as the constant function. -/
theorem zeroOff1 : (![0] : Fin 1 → Nat) = fun _ => 0 := funext fun a => by fin_cases a; rfl

/-- The array the second kernel leaves: at node `n`, feature `o`, the normalised, scaled, shifted, clamped entry. -/
abbrev outArr (c : Dev nD) : S50000x128.Idx → EReal :=
  fun i => bnRelu (fun n o => V c main_v29_0 (ix2 n o)) (fun o => V c main_v33 (ix1 o)) (fun o => V c main_v42 (ix1 o))
    (V c main_arg4) (V c main_arg5) (i 0) (i 1)

/-- The block indices over the 25 grid points: the node-by-feature windows (0 and 5) are at block `(t, 0)`,
    the four per-feature windows at block `(0)`. -/
theorem blockIdx : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- Row `r` of the block of point `t` of window 0 is row `2000 t + r` of its array. -/
theorem blk0_apply (c : Dev nD) (t : Fin cfg1.N) (r : Fin 2000) (o : Fin 128) (n : Fin 50000)
    (hn : n.val = 2000 * t.val + r.val) :
    (iblk1 V c 0 t : Vec Ideal S2000x128 .f32) (ix2 r o) = V c main_v29_0 (ix2 n o) := by
  obtain ⟨e0, e1, -⟩ := blockIdx t
  show V c main_v29_0 (((cfg1.win 0).blk t).view.emb (ix2 r o)) = V c main_v29_0 (ix2 n o)
  congr 1
  funext a; apply Fin.ext
  match a with
  | ⟨0, _⟩ => show win1_0.index t (0 : Fin 2) * 2000 + 1 * r.val = n.val; rw [e0, hn]; omega
  | ⟨1, _⟩ => show win1_0.index t (1 : Fin 2) * 128 + 1 * o.val = o.val; rw [e1]; omega

/-- A per-feature window's one block is its whole array: window 1's is the whole mean vector. -/
theorem blk1_apply (c : Dev nD) (t : Fin cfg1.N) (o : Fin 128) :
    (iblk1 V c 1 t : Vec Ideal S128 .f32) (ix1 o) = V c main_v33 (ix1 o) := by
  obtain ⟨-, -, -, -, e, -⟩ := blockIdx t
  show V c main_v33 (((cfg1.win 1).blk t).view.emb (ix1 o)) = V c main_v33 (ix1 o)
  congr 1
  funext a; apply Fin.ext
  match a with
  | ⟨0, _⟩ => show win1_1.index t (0 : Fin 1) * 128 + 1 * o.val = o.val; rw [e]; omega

/-- Window 2's one block is the whole reciprocal-deviation vector. -/
theorem blk2_apply (c : Dev nD) (t : Fin cfg1.N) (o : Fin 128) :
    (iblk1 V c 2 t : Vec Ideal S128 .f32) (ix1 o) = V c main_v42 (ix1 o) := by
  obtain ⟨-, -, -, -, -, e, -⟩ := blockIdx t
  show V c main_v42 (((cfg1.win 2).blk t).view.emb (ix1 o)) = V c main_v42 (ix1 o)
  congr 1
  funext a; apply Fin.ext
  match a with
  | ⟨0, _⟩ => show win1_2.index t (0 : Fin 1) * 128 + 1 * o.val = o.val; rw [e]; omega

/-- Window 3's one block is the whole scale vector. -/
theorem blk3_apply (c : Dev nD) (t : Fin cfg1.N) (o : Fin 128) :
    (iblk1 V c 3 t : Vec Ideal S128 .f32) (ix1 o) = V c main_arg4 (ix1 o) := by
  obtain ⟨-, -, -, -, -, -, e, -⟩ := blockIdx t
  show V c main_arg4 (((cfg1.win 3).blk t).view.emb (ix1 o)) = V c main_arg4 (ix1 o)
  congr 1
  funext a; apply Fin.ext
  match a with
  | ⟨0, _⟩ => show win1_3.index t (0 : Fin 1) * 128 + 1 * o.val = o.val; rw [e]; omega

/-- Window 4's one block is the whole shift vector. -/
theorem blk4_apply (c : Dev nD) (t : Fin cfg1.N) (o : Fin 128) :
    (iblk1 V c 4 t : Vec Ideal S128 .f32) (ix1 o) = V c main_arg5 (ix1 o) := by
  obtain ⟨-, -, -, -, -, -, -, e⟩ := blockIdx t
  show V c main_arg5 (((cfg1.win 4).blk t).view.emb (ix1 o)) = V c main_arg5 (ix1 o)
  congr 1
  funext a; apply Fin.ext
  match a with
  | ⟨0, _⟩ => show win1_4.index t (0 : Fin 1) * 128 + 1 * o.val = o.val; rw [e]; omega

/-- Row `r`, feature `o` of the output block of point `t` sits at row `2000 t + r`, feature `o` of the output array. -/
theorem emb5 (t : Fin cfg1.N) (r : Fin 2000) (o : Fin 128) (n : Fin 50000) (hn : n.val = 2000 * t.val + r.val) :
    (((cfg1.win 5).blk t).view.emb (ix2 r o) : S50000x128.Idx) = ix2 n o := by
  obtain ⟨-, -, e0, e1, -⟩ := blockIdx t
  funext a; apply Fin.ext
  match a with
  | ⟨0, _⟩ => show win1_5.index t (0 : Fin 2) * 2000 + 1 * r.val = n.val; rw [e0, hn]; omega
  | ⟨1, _⟩ => show win1_5.index t (1 : Fin 2) * 128 + 1 * o.val = o.val; rw [e1]; omega

/-- What point `t` writes back is block `t` of `outArr`: the body's arithmetic at row `r`, feature `o` of the loaded
    blocks is `outArr` at row `2000 t + r`, feature `o`. -/
theorem flushed_eq (c : Dev nD) (t : Fin cfg1.N) :
    (dat1 (F := Ideal) V c).flushed 5 t = ((cfg1.win 5).blk t).view.read (Elt Ideal) (outArr V c) := by
  show (cfg1.win 5).cut (grid1.coords t) ((dat1 V c).after 5 t) = _
  rw [after1_5]
  unfold out1_5
  rw [View.canon_unit_zero zeroOff2]
  simp only [View.ld_unit_zero (S := S2000x128) zeroOff2, View.ld_unit_zero (S := S128) zeroOff1]
  funext j
  obtain ⟨r, o, rfl⟩ : ∃ (r : Fin 2000) (o : Fin 128), j = ix2 r o := ⟨j 0, j 1, eq_ix2 j⟩
  show k1_pay1 (F := Ideal) (iblk1 V c 0 t) (iblk1 V c 1 t) (iblk1 V c 2 t) (iblk1 V c 3 t) (iblk1 V c 4 t) (ix2 r o)
    = outArr V c (((cfg1.win 5).blk t).view.emb (ix2 r o))
  refine (pay_apply (iblk1 V c 0 t) (iblk1 V c 1 t) (iblk1 V c 2 t) (iblk1 V c 3 t) (iblk1 V c 4 t) r o).trans ?_
  have ht : t.val < 25 := t.isLt
  have hr : r.val < 2000 := r.isLt
  rw [blk0_apply V c t r o ⟨2000 * t.val + r.val, by omega⟩ rfl, blk1_apply, blk2_apply, blk3_apply, blk4_apply,
    emb5 t r o ⟨2000 * t.val + r.val, by omega⟩ rfl]
  rfl

/-! ## From the blocks to the array -/

/-- An entry of the output array lies in point `t`'s block when each coordinate lies in the block's range on its axis. -/
theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v43).slice (win1_5.rect t)).set ↔ _
  rw [View.set_slice_whole, Rect.mem_set_unit]
  exact Iff.rfl

/-- The 25 blocks of 2000 rows tile the 50000 rows: row `n` is in the block of point `n / 2000`. -/
theorem covered (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hq : (i 0).val / 2000 < cfg1.N := by show _ < grid1.N; rw [N_1]; omega
  refine ⟨⟨(i 0).val / 2000, hq⟩, flush1_5 _, ?_⟩
  rw [mem_blk5]
  obtain ⟨-, -, e0, e1, -⟩ := blockIdx ⟨(i 0).val / 2000, hq⟩
  intro a
  match a with
  | ⟨0, _⟩ =>
    show win1_5.index ⟨(i 0).val / 2000, hq⟩ (0 : Fin 2) * 2000 ≤ (i 0).val
      ∧ (i 0).val < win1_5.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hq⟩ (1 : Fin 2) * 128 ≤ (i 1).val
      ∧ (i 1).val < win1_5.index ⟨(i 0).val / 2000, hq⟩ (1 : Fin 2) * 128 + 128
    rw [e1]
    omega

/-- After the second kernel's grid, its output array holds, at node `n` and feature `o`, the normalised, scaled,
    shifted and clamped entry of its first operand, with the per-feature operands read at `o`. -/
theorem final (c : Dev nD) :
    (dat1 (F := Ideal) V c).arrAt 5 cfg1.N
      = fun i => bnRelu (fun n o => V c main_v29_0 (ix2 n o)) (fun o => V c main_v33 (ix1 o)) (fun o => V c main_v42 (ix1 o))
          (V c main_arg4) (V c main_arg5) (i 0) (i 1) :=
  (dat1 V c).arrAt_eq_of_cover 5 (outArr V c) (fun t _ => flushed_eq V c t) covered

end Cert.KernelIdeal.Norm

end
-- ==== Proof.HostMid.lean ====
import proofs.«150599_j78005196030507_1_alg».proof.Proof.Gen.KernelIdeal.Frame
import proofs.«150599_j78005196030507_1_alg».proof.Proof.Spec
import Idealize.ShloMosaic.Lib.Pipeline.Value
import Idealize.ShloMosaic.Lib.StableHlo.Run
set_option maxRecDepth 16384

noncomputable section

namespace Cert.KernelIdeal.Between

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (Wv : Valuation τ sig (Elt Ideal))

/-- Row 0 of the two-row statistics as a vector: the slice at offset (0, 0), flattened, read at `q`
    is the array at (0, q). -/
private theorem row0_apply (s : (⟨S2x128, .f32⟩ : BufTy).Contents (Elt Ideal)) (q : Fin 128) :
    shapeCast S128 (extractStridedSlice S1x128 ![0, 0] s slices_S2x128_S1x128_0_0) shapeCasts_S1x128_S128 (ix1 q)
      = s (ix2 (0 : Fin 2) q) := by
  rw [shapeCast_apply _ shapeCasts_S1x128_S128 (ix1 q) (ix2 (0 : Fin 1) q)
    (by rewrite [Shape.rowMajor_val_two, Shape.rowMajor_val_one]; show 0 * 128 + q.val = q.val; omega)]
  exact extractStridedSlice_apply ![0, 0] s slices_S2x128_S1x128_0_0 (ix2 (0 : Fin 1) q) (ix2 (0 : Fin 2) q)
    (fun a => match a with
      | ⟨0, _⟩ => by show (0 : Nat) = 0 + 0; omega
      | ⟨1, _⟩ => by show q.val = 0 + q.val; omega)

/-- Row 1 likewise: the slice at offset (1, 0), flattened, read at `q` is the array at (1, q). -/
private theorem row1_apply (s : (⟨S2x128, .f32⟩ : BufTy).Contents (Elt Ideal)) (q : Fin 128) :
    shapeCast S128 (extractStridedSlice S1x128 ![1, 0] s slices_S2x128_S1x128_1_0) shapeCasts_S1x128_S128 (ix1 q)
      = s (ix2 (1 : Fin 2) q) := by
  rw [shapeCast_apply _ shapeCasts_S1x128_S128 (ix1 q) (ix2 (0 : Fin 1) q)
    (by rewrite [Shape.rowMajor_val_two, Shape.rowMajor_val_one]; show 0 * 128 + q.val = q.val; omega)]
  exact extractStridedSlice_apply ![1, 0] s slices_S2x128_S1x128_1_0 (ix2 (0 : Fin 1) q) (ix2 (1 : Fin 2) q)
    (fun a => match a with
      | ⟨0, _⟩ => by show (1 : Nat) = 1 + 0; omega
      | ⟨1, _⟩ => by show q.val = 0 + q.val; omega)

/-- A scalar constant broadcast over the features reads, at every feature, the extended real its word encodes. -/
private theorem splat_apply (w : BitVec 32) (i : S128.Idx) :
    broadcastInDim S128 ![] bcast_S_S128 (constant (F := Ideal) S_ .f32 w) i = Ideal.ofBits .f32 w := by
  rw [broadcastInDim_apply _ bcast_S_S128 (constant (F := Ideal) S_ .f32 w) i ix0 (fun a => a.elim0)]
  rfl

/-- The host operations between the two kernels leave in the mean buffer row 0 of the statistics over the node count. -/
theorem mean_eq :
    StableHlo.after (hostOps1 (F := Ideal)) Wv (Proc.devRef .tc main_v33)
      = fun i => Ideal.div (Wv (Proc.devRef .tc main_v29_1) (ix2 (0 : Fin 2) (i 0))) cN := by
  show StableHlo.after hostOps1 Wv (Proc.devRef .tc main_v33) = _
  dsimp only [hostOps1]
  after_results
  -- what is left is the quotient of (row 0, flattened) by the broadcast node count, over the statistics array
  generalize Wv (Proc.devRef .tc main_v29_1) = s
  funext i
  obtain ⟨q, rfl⟩ : ∃ q : Fin 128, i = ix1 q := ⟨i 0, eq_ix1 i⟩
  show Ideal.div
      (shapeCast S128 (extractStridedSlice S1x128 ![0, 0] s slices_S2x128_S1x128_0_0) shapeCasts_S1x128_S128 (ix1 q))
      (broadcastInDim S128 ![] bcast_S_S128 (constant (F := Ideal) S_ .f32 0x47435000#32) (ix1 q)) = _
  rw [row0_apply, splat_apply]
  rfl

/-- … and in the reciprocal-deviation buffer `rsqrt` of row 1 over the node count, less the squared mean, plus ε. -/
theorem istd_eq :
    StableHlo.after (hostOps1 (F := Ideal)) Wv (Proc.devRef .tc main_v42)
      = fun i => Ideal.rsqrt ((Ideal.div (Wv (Proc.devRef .tc main_v29_1) (ix2 (1 : Fin 2) (i 0))) cN
          - Ideal.div (Wv (Proc.devRef .tc main_v29_1) (ix2 (0 : Fin 2) (i 0))) cN
            * Ideal.div (Wv (Proc.devRef .tc main_v29_1) (ix2 (0 : Fin 2) (i 0))) cN) + cEps) := by
  show StableHlo.after hostOps1 Wv (Proc.devRef .tc main_v42) = _
  dsimp only [hostOps1]
  after_results
  -- every operand traces back to the statistics array: rsqrt ((row 1 / N − (row 0 / N) · (row 0 / N)) + ε), pointwise
  generalize Wv (Proc.devRef .tc main_v29_1) = s
  funext i
  obtain ⟨q, rfl⟩ : ∃ q : Fin 128, i = ix1 q := ⟨i 0, eq_ix1 i⟩
  show Ideal.rsqrt
      ((Ideal.div
          (shapeCast S128 (extractStridedSlice S1x128 ![1, 0] s slices_S2x128_S1x128_1_0) shapeCasts_S1x128_S128 (ix1 q))
          (broadcastInDim S128 ![] bcast_S_S128 (constant (F := Ideal) S_ .f32 0x47435000#32) (ix1 q))
        - Ideal.div
            (shapeCast S128 (extractStridedSlice S1x128 ![0, 0] s slices_S2x128_S1x128_0_0) shapeCasts_S1x128_S128 (ix1 q))
            (broadcastInDim S128 ![] bcast_S_S128 (constant (F := Ideal) S_ .f32 0x47435000#32) (ix1 q))
          * Ideal.div
            (shapeCast S128 (extractStridedSlice S1x128 ![0, 0] s slices_S2x128_S1x128_0_0) shapeCasts_S1x128_S128 (ix1 q))
            (broadcastInDim S128 ![] bcast_S_S128 (constant (F := Ideal) S_ .f32 0x47435000#32) (ix1 q)))
        + broadcastInDim S128 ![] bcast_S_S128 (constant (F := Ideal) S_ .f32 0x3727C5AC#32) (ix1 q)) = _
  rw [row0_apply, row1_apply, splat_apply, splat_apply]
  rfl

/-- They write neither the first kernel's first output nor the scale and shift arguments. -/
theorem keep_y : StableHlo.after (hostOps1 (F := Ideal)) Wv (Proc.devRef .tc main_v29_0) = Wv (Proc.devRef .tc main_v29_0) := by
  exact StableHlo.after_of_forall_not_mem (b := Proc.devRef .tc main_v29_0) _ _ (List.forall_iff_forall_mem.mp (by
    -- none of the sixteen result buffers is this one
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep_arg4 : StableHlo.after (hostOps1 (F := Ideal)) Wv (Proc.devRef .tc main_arg4) = Wv (Proc.devRef .tc main_arg4) := by
  exact StableHlo.after_of_forall_not_mem (b := Proc.devRef .tc main_arg4) _ _ (List.forall_iff_forall_mem.mp (by
    -- none of the sixteen result buffers is this one
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem keep_arg5 : StableHlo.after (hostOps1 (F := Ideal)) Wv (Proc.devRef .tc main_arg5) = Wv (Proc.devRef .tc main_arg5) := by
  exact StableHlo.after_of_forall_not_mem (b := Proc.devRef .tc main_arg5) _ _ (List.forall_iff_forall_mem.mp (by
    -- none of the sixteen result buffers is this one
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.Between

end
-- ==== Proof.HostPre.lean ====
import proofs.«150599_j78005196030507_1_alg».proof.Proof.Gen.KernelIdeal.Frame
import proofs.«150599_j78005196030507_1_alg».proof.Proof.Spec
import proofs.«150599_j78005196030507_1_alg».proof.Proof.Gen.ReferenceIdeal.Read
import Idealize.ShloMosaic.Lib.StableHlo.Run
set_option maxRecDepth 16384

noncomputable section

namespace Cert.KernelIdeal.Before

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

section AnyFloat

variable {F : FTy → Type} [FloatOps F]

/-- The five host stretches before the first kernel, folded from the launch memory and read at the buffer of the
    last quotient, for any float values. The 42 operations are, in order:
    rows 0 and 1 of the edge list as vectors `s` and `t` (a slice and a reshape each);
    `s` clamped below at zero, then an index below zero moved up by the number of nodes (compare, add, select),
    and a count per node of the edges whose moved index is that node (ones scattered by integer addition into zeros),
    made a float and clamped below at one;
    `t` moved up the same way, the feature rows gathered at it, and those rows added into zeros at the rows `s` names;
    the sums divided, row by row, by the clamped count repeated along the features.
    Each operation writes one buffer and reads buffers written earlier or arguments, so the fold at that buffer is
    the composition of the 42 functions applied to the two arguments. The other program's stage for the same
    operations is that composition too, named operation by operation; its shapes and dimension records are its own
    copies with the same fields (their well-formedness fields are propositions), so the two sides agree by unfolding. -/
private theorem agg_any (mF : (ℓ : Loc nD τ sig) → Buf (Elt F) ℓ) (ρF : Dev nD → PrngReg) (c : Dev nD) :
    W5 mF ρF c (Proc.devRef .tc main_v28)
      = Cert.ReferenceIdeal.Read.val_main_v28 (F := F) (mF ((c : Thread nD τ).loc main_arg0)) (mF ((c : Thread nD τ).loc main_arg1)) := by
  -- the five boundary contents as one nested fold over the literal operation lists
  show StableHlo.after hostOps0_4 (StableHlo.after hostOps0_3 (StableHlo.after hostOps0_2 (StableHlo.after hostOps0_1
    (StableHlo.after hostOps0 (W0 mF ρF c))))) (Proc.devRef .tc main_v28) = _
  simp only [hostOps0, hostOps0_1, hostOps0_2, hostOps0_3, hostOps0_4]
  -- each operation's result at its own buffer is its function of its operands' contents; at any other buffer, what was there
  after_results_simp
  -- both sides are now the same composition over the launch contents of the two arguments
  rfl

end AnyFloat

/-- When the first kernel is entered, the buffer of its second operand holds the degree-normalised neighbour sum
    of the launch's node features and edge list: the same operations, on the same arguments, as the other program's. -/
theorem agg_eq (c : Dev nD) :
    W5 m ρ c (Proc.devRef .tc main_v28)
      = Cert.ReferenceIdeal.Read.val_main_v28 (F := Ideal) (m ((c : Thread nD τ).loc main_arg0)) (m ((c : Thread nD τ).loc main_arg1)) :=
  agg_any m ρ c

/-- A buffer that none of the five host stretches before the first kernel writes still holds its launch contents
    there: each stretch leaves an unwritten buffer alone, so the fold walks back to the launch memory. -/
private theorem W5_of_unwritten (c : Dev nD) (b : Ref sig .tc)
    (h0 : ∀ op ∈ (hostOps0 : List (HloOp τ sig (Elt Ideal))), Proc.devRef (τ := τ) .tc b ∉ op.writes)
    (h1 : ∀ op ∈ (hostOps0_1 : List (HloOp τ sig (Elt Ideal))), Proc.devRef (τ := τ) .tc b ∉ op.writes)
    (h2 : ∀ op ∈ (hostOps0_2 : List (HloOp τ sig (Elt Ideal))), Proc.devRef (τ := τ) .tc b ∉ op.writes)
    (h3 : ∀ op ∈ (hostOps0_3 : List (HloOp τ sig (Elt Ideal))), Proc.devRef (τ := τ) .tc b ∉ op.writes)
    (h4 : ∀ op ∈ (hostOps0_4 : List (HloOp τ sig (Elt Ideal))), Proc.devRef (τ := τ) .tc b ∉ op.writes) :
    W5 m ρ c (Proc.devRef .tc b) = m ((c : Thread nD τ).loc b) :=
  calc W5 m ρ c (Proc.devRef .tc b)
    _ = W4 m ρ c (Proc.devRef .tc b) := StableHlo.after_of_forall_not_mem (b := Proc.devRef .tc b) _ _ h4
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- Every operation of a literal stretch writes one buffer, named in its builder; the goal "the buffer is written by
    none of them" becomes one inequality of references per operation, each decided. -/
local macro "unwritten_by " ops:ident : tactic =>
  `(tactic| (refine List.forall_iff_forall_mem.mp ?_
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- No host operation before the first kernel writes an argument. -/
theorem arg0_eq (c : Dev nD) : W5 m ρ c (Proc.devRef .tc main_arg0) = m ((c : Thread nD τ).loc main_arg0) :=
  W5_of_unwritten m ρ c main_arg0 (by unwritten_by hostOps0) (by unwritten_by hostOps0_1) (by unwritten_by hostOps0_2)
    (by unwritten_by hostOps0_3) (by unwritten_by hostOps0_4)
theorem arg2_eq (c : Dev nD) : W5 m ρ c (Proc.devRef .tc main_arg2) = m ((c : Thread nD τ).loc main_arg2) :=
  W5_of_unwritten m ρ c main_arg2 (by unwritten_by hostOps0) (by unwritten_by hostOps0_1) (by unwritten_by hostOps0_2)
    (by unwritten_by hostOps0_3) (by unwritten_by hostOps0_4)
theorem arg3_eq (c : Dev nD) : W5 m ρ c (Proc.devRef .tc main_arg3) = m ((c : Thread nD τ).loc main_arg3) :=
  W5_of_unwritten m ρ c main_arg3 (by unwritten_by hostOps0) (by unwritten_by hostOps0_1) (by unwritten_by hostOps0_2)
    (by unwritten_by hostOps0_3) (by unwritten_by hostOps0_4)
theorem arg4_eq (c : Dev nD) : W5 m ρ c (Proc.devRef .tc main_arg4) = m ((c : Thread nD τ).loc main_arg4) :=
  W5_of_unwritten m ρ c main_arg4 (by unwritten_by hostOps0) (by unwritten_by hostOps0_1) (by unwritten_by hostOps0_2)
    (by unwritten_by hostOps0_3) (by unwritten_by hostOps0_4)
theorem arg5_eq (c : Dev nD) : W5 m ρ c (Proc.devRef .tc main_arg5) = m ((c : Thread nD τ).loc main_arg5) :=
  W5_of_unwritten m ρ c main_arg5 (by unwritten_by hostOps0) (by unwritten_by hostOps0_1) (by unwritten_by hostOps0_2)
    (by unwritten_by hostOps0_3) (by unwritten_by hostOps0_4)

end Cert.KernelIdeal.Before

end
-- ==== Proof.KernelValue.lean ====
import proofs.«150599_j78005196030507_1_alg».proof.Proof.Gen.KernelIdeal.Frame
import proofs.«150599_j78005196030507_1_alg».proof.Proof.Spec
import proofs.«150599_j78005196030507_1_alg».proof.Proof.Region0
import proofs.«150599_j78005196030507_1_alg».proof.Proof.Region1
import proofs.«150599_j78005196030507_1_alg».proof.Proof.HostMid
import proofs.«150599_j78005196030507_1_alg».proof.Proof.HostPre
set_option maxRecDepth 16384

noncomputable section

namespace Cert.KernelIdeal.Whole

open Cert.KernelIdeal Cert.KernelIdeal.Gen Cert.BnSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The degree-normalised neighbour sum of the launch's node features and edge list. -/
abbrev agg (c : Dev nD) : Rows.Idx → EReal :=
  Cert.ReferenceIdeal.Read.val_main_v28 (F := Ideal) (m ((c : Thread nD τ).loc main_arg0)) (m ((c : Thread nD τ).loc main_arg1))

/-- The linear layer of the launch's arguments. -/
abbrev yy (c : Dev nD) : Fin 50000 → Fin 128 → EReal :=
  lin (m ((c : Thread nD τ).loc main_arg0)) (agg m c) (m ((c : Thread nD τ).loc main_arg2)) (m ((c : Thread nD τ).loc main_arg3))

/-- The linear layer depends on its four arrays only. -/
theorem lin_congr {x x' A A' : Rows.Idx → EReal} {W W' : Wt.Idx → EReal} {b b' : Col.Idx → EReal}
    (hx : x = x') (hA : A = A') (hW : W = W') (hb : b = b') : lin x A W b = lin x' A' W' b' := by
  subst hx hA hW hb; rfl

theorem lin_arr_congr {x x' A A' : Rows.Idx → EReal} {W W' : Wt.Idx → EReal} {b b' : Col.Idx → EReal}
    (hx : x = x') (hA : A = A') (hW : W = W') (hb : b = b') :
    (fun i : Rows.Idx => lin x A W b (i 0) (i 1)) = fun i : Rows.Idx => lin x' A' W' b' (i 0) (i 1) := by
  subst hx hA hW hb; rfl

/-- When the second kernel is entered its first operand holds the linear layer: the first kernel's first output,
    which the host operations in between do not write. -/
theorem y_entry (c : Dev nD) : V7 m ρ c main_v29_0 = fun i => yy m c (i 0) (i 1) := by
  show StableHlo.after hostOps1 (W6 m ρ c) (Proc.devRef .tc main_v29_0) = _
  rw [Between.keep_y]
  refine (W6_arr m ρ c 4).trans ((Linear.final_y (V5 m ρ) c).trans ?_)
  exact lin_arr_congr (Before.arg0_eq m ρ c) (Before.agg_eq m ρ c) (Before.arg2_eq m ρ c) (Before.arg3_eq m ρ c)

/-- … and the statistics buffer holds the column sums and sums of squares of the linear layer. -/
theorem stats_exit (c : Dev nD) : W6 m ρ c (Proc.devRef .tc main_v29_1) = statsArr (yy m c) := by
  refine (W6_arr m ρ c 5).trans ((Linear.final_stats (V5 m ρ) c).trans ?_)
  exact congrArg statsArr
    (lin_congr (Before.arg0_eq m ρ c) (Before.agg_eq m ρ c) (Before.arg2_eq m ρ c) (Before.arg3_eq m ρ c))

theorem statsArr_row0 (y : Fin 50000 → Fin 128 → EReal) (o : Fin 128) : statsArr y (ix2 (0 : Fin 2) o) = colSum y o := by
  unfold statsArr; exact if_pos rfl

theorem statsArr_row1 (y : Fin 50000 → Fin 128 → EReal) (o : Fin 128) : statsArr y (ix2 (1 : Fin 2) o) = colSumSq y o := by
  unfold statsArr; exact if_neg (by show ¬(1 : ℕ) = 0; omega)

/-- The mean operand of the second kernel is the column mean of the linear layer. -/
theorem mean_entry (c : Dev nD) : V7 m ρ c main_v33 = fun i => mean (yy m c) (i 0) := by
  show StableHlo.after hostOps1 (W6 m ρ c) (Proc.devRef .tc main_v33) = _
  rw [Between.mean_eq, stats_exit]
  funext i
  obtain ⟨q, rfl⟩ : ∃ q : Fin 128, i = ix1 q := ⟨i 0, eq_ix1 i⟩
  show Ideal.div (statsArr (yy m c) (ix2 (0 : Fin 2) q)) cN = mean (yy m c) q
  rw [statsArr_row0]; rfl

/-- Its reciprocal-deviation operand is `rsqrt` of the second-moment variance plus ε. -/
theorem istd_entry (c : Dev nD) : V7 m ρ c main_v42 = fun i => invStd (varK (yy m c)) (i 0) := by
  show StableHlo.after hostOps1 (W6 m ρ c) (Proc.devRef .tc main_v42) = _
  rw [Between.istd_eq, stats_exit]
  funext i
  obtain ⟨q, rfl⟩ : ∃ q : Fin 128, i = ix1 q := ⟨i 0, eq_ix1 i⟩
  show Ideal.rsqrt ((Ideal.div (statsArr (yy m c) (ix2 (1 : Fin 2) q)) cN
      - Ideal.div (statsArr (yy m c) (ix2 (0 : Fin 2) q)) cN
        * Ideal.div (statsArr (yy m c) (ix2 (0 : Fin 2) q)) cN) + cEps) = invStd (varK (yy m c)) q
  rw [statsArr_row0, statsArr_row1]; rfl

/-- The scale and shift operands are the launch's. -/
theorem gamma_entry (c : Dev nD) : V7 m ρ c main_arg4 = m ((c : Thread nD τ).loc main_arg4) := by
  show StableHlo.after hostOps1 (W6 m ρ c) (Proc.devRef .tc main_arg4) = _
  rw [Between.keep_arg4, W6_of_ne m ρ c main_arg4 (by decide)]
  exact Before.arg4_eq m ρ c

theorem beta_entry (c : Dev nD) : V7 m ρ c main_arg5 = m ((c : Thread nD τ).loc main_arg5) := by
  show StableHlo.after hostOps1 (W6 m ρ c) (Proc.devRef .tc main_arg5) = _
  rw [Between.keep_arg5, W6_of_ne m ρ c main_arg5 (by decide)]
  exact Before.arg5_eq m ρ c

/-- THE RESULT: after the run the result buffer holds the spec's function, variance as second moment minus squared mean. -/
theorem result_eq (c : Dev nD) :
    W8 m ρ c (Proc.devRef .tc main_v43)
      = outK (m ((c : Thread nD τ).loc main_arg0)) (agg m c) (m ((c : Thread nD τ).loc main_arg2))
          (m ((c : Thread nD τ).loc main_arg3)) (m ((c : Thread nD τ).loc main_arg4)) (m ((c : Thread nD τ).loc main_arg5)) := by
  refine (W8_arr m ρ c 5).trans ((Norm.final (V7 m ρ) c).trans ?_)
  rw [y_entry, mean_entry, istd_entry, gamma_entry, beta_entry]
  rfl

end Cert.KernelIdeal.Whole

end
-- ==== Proof.RefValue.lean ====
/-
  The other program, read one operation at a time: its result is the spec's function with the variance taken as the
  mean squared deviation, of the node features, the degree-normalised neighbour sum (left as the program's own term
  of the features and the edge list), the weights, the bias, the scale and the shift.
-/
import proofs.«150599_j78005196030507_1_alg».proof.Proof.Gen.ReferenceIdeal.Read
import proofs.«150599_j78005196030507_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.BnSpec
open Idealize.ShloMosaic Idealize.ShloMosaic.ValueIdx

/-! ## Index equations: the composed index maps of the stages, at an index given by its coordinates -/

/-- The left operand of the contraction is read at row `n`, column `k`. -/
private theorem lidx30 (n : Fin 50000) (o k : Fin 128) : lidx_main_v30 (ix2 n o) k = ix2 n k :=
  funext fun a => Fin.ext (by match a with | ⟨0, _⟩ => rfl | ⟨1, _⟩ => rfl)

/-- The right operand of the contraction is read at row `o`, column `k`: both second axes are contracted. -/
private theorem ridx30 (n : Fin 50000) (o k : Fin 128) : ridx_main_v30 (ix2 n o) k = ix2 o k :=
  funext fun a => Fin.ext (by match a with | ⟨0, _⟩ => rfl | ⟨1, _⟩ => rfl)

/-- A per-feature vector broadcast over the rows is read at the column. -/
private theorem bidx32 (n : Fin 50000) (o : Fin 128) : idx_main_v31 (idx_main_v32 (ix2 n o)) = ix1 o :=
  funext fun a => Fin.ext (by match a with | ⟨0, _⟩ => rfl)

/-- A column sum reads column `o` at every row `k`. -/
private theorem ridx34 (o : Fin 128) (k : Fin 50000) : idx_main_v34 (ix1 o) k = ix2 k o :=
  funext fun a => Fin.ext (by match a with | ⟨0, _⟩ => rfl | ⟨1, _⟩ => rfl)

/-! ## The linear layer -/

/-- Stage 33 is the linear layer of `x + A`: the contraction of row `n` of `x + A` with row `o` of the weights, plus
    the bias at `o`. -/
private theorem v33_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (n : Fin 50000) (o : Fin 128) :
    val_main_v33 (F := Ideal) x0 x1 x2 x3 (ix2 n o) = lin x0 (val_main_v28 (F := Ideal) x0 x1) x2 x3 n o := by
  rw [val_main_v33_apply, val_main_v30_apply, val_main_v32_apply, val_main_v31_apply, bidx32]
  simp only [val_main_v29_apply, lidx30, ridx30, Ideal.addf_def]
  rfl

/-! ## The column mean -/

/-- Stage 34 is the column sum of the linear layer; its initial value is the zero word, which adds nothing. -/
private theorem v34_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (o : Fin 128) :
    val_main_v34 (F := Ideal) x0 x1 x2 x3 (ix1 o) = colSum (lin x0 (val_main_v28 (F := Ideal) x0 x1) x2 x3) o := by
  rw [val_main_v34_apply, val_main_cst_7_apply, Ideal.ofBits_def, Ideal.ofBits_zero_f32, zero_add]
  simp only [ridx34, v33_apply]
  rfl

/-- Stage 36 is the column mean: the column sum divided by the number of rows. -/
private theorem v36_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (o : Fin 128) :
    val_main_v36 (F := Ideal) x0 x1 x2 x3 (ix1 o) = mean (lin x0 (val_main_v28 (F := Ideal) x0 x1) x2 x3) o := by
  rw [val_main_v36_apply, v34_apply, val_main_v35_apply, val_main_cst_8_apply, Ideal.hostDivf_def, Ideal.ofBits_def]
  rfl

/-! ## The variance as the mean squared deviation -/

/-- The mean broadcast over the rows (first use) is read at the column. -/
private theorem bidx38 (n : Fin 50000) (o : Fin 128) : idx_main_v37 (idx_main_v38 (ix2 n o)) = ix1 o :=
  funext fun a => Fin.ext (by match a with | ⟨0, _⟩ => rfl)

/-- Stage 39 is the deviation of the linear layer from its column mean. -/
private theorem v39_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (n : Fin 50000) (o : Fin 128) :
    val_main_v39 (F := Ideal) x0 x1 x2 x3 (ix2 n o)
      = lin x0 (val_main_v28 (F := Ideal) x0 x1) x2 x3 n o - mean (lin x0 (val_main_v28 (F := Ideal) x0 x1) x2 x3) o := by
  rw [val_main_v39_apply, v33_apply, val_main_v38_apply, val_main_v37_apply, bidx38, v36_apply, Ideal.subf_def]

/-- The column sum of squares reads column `o` at every row `k`. -/
private theorem ridx41 (o : Fin 128) (k : Fin 50000) : idx_main_v41 (ix1 o) k = ix2 k o :=
  funext fun a => Fin.ext (by match a with | ⟨0, _⟩ => rfl | ⟨1, _⟩ => rfl)

/-- Stage 41 is the column sum of the squared deviations; its initial value is the zero word. -/
private theorem v41_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (o : Fin 128) :
    val_main_v41 (F := Ideal) x0 x1 x2 x3 (ix1 o)
      = ∑ n : Fin 50000,
          (lin x0 (val_main_v28 (F := Ideal) x0 x1) x2 x3 n o - mean (lin x0 (val_main_v28 (F := Ideal) x0 x1) x2 x3) o)
            * (lin x0 (val_main_v28 (F := Ideal) x0 x1) x2 x3 n o - mean (lin x0 (val_main_v28 (F := Ideal) x0 x1) x2 x3) o) := by
  rw [val_main_v41_apply, val_main_cst_9_apply, Ideal.ofBits_def, Ideal.ofBits_zero_f32, zero_add]
  simp only [ridx41, val_main_v40_apply, v39_apply, Ideal.mulf_def]

/-- Stage 43 is the variance: the sum of squared deviations divided by the number of rows. -/
private theorem v43_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (o : Fin 128) :
    val_main_v43 (F := Ideal) x0 x1 x2 x3 (ix1 o) = varR (lin x0 (val_main_v28 (F := Ideal) x0 x1) x2 x3) o := by
  rw [val_main_v43_apply, v41_apply, val_main_v42_apply, val_main_cst_10_apply, Ideal.hostDivf_def, Ideal.ofBits_def]
  rfl

/-! ## Normalise, scale, shift, clamp -/

/-- The mean broadcast over the rows (second use) is read at the column. -/
private theorem bidx45 (n : Fin 50000) (o : Fin 128) : idx_main_v44 (idx_main_v45 (ix2 n o)) = ix1 o :=
  funext fun a => Fin.ext (by match a with | ⟨0, _⟩ => rfl)

/-- Stage 46 is again the deviation from the column mean. -/
private theorem v46_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (n : Fin 50000) (o : Fin 128) :
    val_main_v46 (F := Ideal) x0 x1 x2 x3 (ix2 n o)
      = lin x0 (val_main_v28 (F := Ideal) x0 x1) x2 x3 n o - mean (lin x0 (val_main_v28 (F := Ideal) x0 x1) x2 x3) o := by
  rw [val_main_v46_apply, v33_apply, val_main_v45_apply, val_main_v44_apply, bidx45, v36_apply, Ideal.subf_def]

/-- Stage 49 is the reciprocal standard deviation: the reciprocal square root of the variance plus ε. -/
private theorem v49_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (o : Fin 128) :
    val_main_v49 (F := Ideal) x0 x1 x2 x3 (ix1 o) = invStd (varR (lin x0 (val_main_v28 (F := Ideal) x0 x1) x2 x3)) o := by
  rw [val_main_v49_apply, val_main_v48_apply, v43_apply, val_main_v47_apply, val_main_cst_11_apply,
    Ideal.hostUnary_rsqrt_def, Ideal.addf_def, Ideal.ofBits_def]
  rfl

/-- The reciprocal standard deviation, the scale and the shift, each broadcast over the rows, are read at the column. -/
private theorem bidx51 (n : Fin 50000) (o : Fin 128) : idx_main_v50 (idx_main_v51 (ix2 n o)) = ix1 o :=
  funext fun a => Fin.ext (by match a with | ⟨0, _⟩ => rfl)
private theorem bidx54 (n : Fin 50000) (o : Fin 128) : idx_main_v53 (idx_main_v54 (ix2 n o)) = ix1 o :=
  funext fun a => Fin.ext (by match a with | ⟨0, _⟩ => rfl)
private theorem bidx57 (n : Fin 50000) (o : Fin 128) : idx_main_v56 (idx_main_v57 (ix2 n o)) = ix1 o :=
  funext fun a => Fin.ext (by match a with | ⟨0, _⟩ => rfl)

theorem result_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 x4 x5 : (⟨S128, .f32⟩ : BufTy).Contents (Elt Ideal)) :
    val_main_v59 (F := Ideal) x0 x1 x2 x3 x4 x5
      = outR x0 (val_main_v28 (F := Ideal) x0 x1) x2 x3 x4 x5 := by
  funext i
  obtain ⟨n, o, rfl⟩ : ∃ (n : Fin 50000) (o : Fin 128), i = ix2 n o := ⟨i 0, i 1, eq_ix2 i⟩
  rw [val_main_v59_apply, val_main_v58_apply, val_main_v55_apply, val_main_v52_apply, v46_apply,
    val_main_v51_apply, val_main_v50_apply, bidx51, v49_apply,
    val_main_v54_apply, val_main_v53_apply, bidx54,
    val_main_v57_apply, val_main_v56_apply, bidx57,
    val_main_call2_v0_apply, val_main_call2_cst_apply]
  simp only [Ideal.maximumf_def, Ideal.addf_def, Ideal.mulf_def, Ideal.ofBits_def]
  rfl

end Cert.ReferenceIdeal.RefValue

end
-- ==== Proof.SpecLaws.lean ====
/-
  The one law that joins the two programs: for a column of REAL numbers y₁ … y_N with mean μ = (∑ y)/N,
    (∑ y²)/N − μ² = (∑ (y − μ)²)/N,
  because ∑ (y − μ)² = ∑ y² − 2 μ ∑ y + N μ² and ∑ y = N μ.  On the extended reals the law fails at an infinite
  entry, so it is stated for real columns; the linear layer of real arrays is real.
-/
import proofs.«150599_j78005196030507_1_alg».proof.Proof.Spec
import Mathlib.Data.EReal.Basic
import Mathlib.Data.EReal.Operations
import Mathlib.Algebra.BigOperators.Ring.Finset
import Mathlib.Tactic.Ring
import Mathlib.Tactic.NormNum
import Mathlib.Tactic.FieldSimp

noncomputable section

namespace Cert.BnSpec

open Idealize.ShloMosaic Idealize.ShloMosaic.ValueIdx

/-- A finite sum of real numbers, read in the extended reals, is the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from any real μ, expanded:
    ∑ (f − μ)² = ∑ f² − 2 μ ∑ f + N μ² with N = 50000 terms. -/
private theorem sum_sq_dev (f : Fin 50000 → ℝ) (μ : ℝ) :
    ∑ n : Fin 50000, (f n - μ) * (f n - μ)
      = (∑ n : Fin 50000, f n * f n) - 2 * μ * (∑ n : Fin 50000, f n) + 50000 * (μ * μ) := by
  have h : ∀ n : Fin 50000, (f n - μ) * (f n - μ) = f n * f n - (2 * μ) * f n + μ * μ := fun n => by ring
  simp only [h]
  rw [Finset.sum_add_distrib, Finset.sum_sub_distrib, ← Finset.mul_sum, Finset.sum_const, Finset.card_univ,
    Fintype.card_fin, nsmul_eq_mul]
  norm_cast

/-- The float 50000.0 is the real 50000, the number of nodes:
    exponent field 142, fraction field 0x435000, so (2²³ + 4411392) · 2^(142 − 127 − 23) = 12800000 / 256. -/
theorem cN_eq : cN = ((50000 : ℝ) : EReal) := by
  show Ideal.ofBits .f32 0x47435000#32 = ((50000 : ℝ) : EReal)
  simp [Ideal.ofBits, Ideal.ieee, -EReal.coe_mul]; norm_num

/-- The linear layer of real arrays is real. -/
theorem lin_isReal (x A : Rows.Idx → EReal) (W : Wt.Idx → EReal) (b : Col.Idx → EReal)
    (hx : ∀ i, IsReal (x i)) (hA : ∀ i, IsReal (A i)) (hW : ∀ i, IsReal (W i)) (hb : ∀ i, IsReal (b i))
    (n : Fin 50000) (o : Fin 128) : IsReal (lin x A W b n o) := by
  -- real witnesses for every entry of the four arrays
  choose fx hfx using hx
  choose fA hfA using hA
  choose fW hfW using hW
  choose fb hfb using hb
  -- the same expression over the reals is the witness
  refine ⟨(∑ d : Fin 128, (fx (ix2 n d) + fA (ix2 n d)) * fW (ix2 o d)) + fb (ix1 o), ?_⟩
  unfold lin
  simp only [hfx, hfA, hfW, hfb]
  rw [EReal.coe_add, ← coe_sum]
  simp only [EReal.coe_add, EReal.coe_mul]

/-- On a real column the two forms of the variance agree. -/
theorem varK_eq_varR (y : Fin 50000 → Fin 128 → EReal) (o : Fin 128) (hy : ∀ n, IsReal (y n o)) :
    varK y o = varR y o := by
  -- the column as real numbers f
  choose f hf using hy
  have hN : (50000 : ℝ) ≠ 0 := by norm_num
  unfold varK varR mean colSum colSumSq
  simp only [hf]
  rw [cN_eq]
  -- division by the real 50000 is multiplication by 1/50000; then both sides are coercions of real expressions
  simp only [Ideal.div_coe hN, ← EReal.coe_mul, coe_sum, ← EReal.coe_sub]
  rw [EReal.coe_eq_coe_iff]
  -- in ℝ: ∑ (f − μ)² = ∑ f² − 2 μ ∑ f + N μ² and μ = (∑ f)/N
  rw [sum_sq_dev]
  ring

/-- On real inputs the two results are one function. -/
theorem outK_eq_outR (x A : Rows.Idx → EReal) (W : Wt.Idx → EReal) (b g be : Col.Idx → EReal)
    (hx : ∀ i, IsReal (x i)) (hA : ∀ i, IsReal (A i)) (hW : ∀ i, IsReal (W i)) (hb : ∀ i, IsReal (b i)) :
    outK x A W b g be = outR x A W b g be := by
  funext i
  unfold outK outR bnRelu invStd
  rw [varK_eq_varR _ _ (fun n => lin_isReal x A W b hx hA hW hb n (i 1))]

end Cert.BnSpec

end
-- ==== Proof.Finite.lean ====
/-
  Finiteness.  The precondition says every float input is finite; at the extended reals that makes every entry of
  the node features, the weights and the bias a real number.  The degree-normalised neighbour sum of real features is
  real: a gathered entry is an entry of the features; a scattered sum adds finitely many of them to zero; a degree is an
  integer count made a float and raised to at least one, so it is a nonzero real, and a real over a nonzero real is real.
-/
import proofs.«150599_j78005196030507_1_alg».proof.Defs
import proofs.«150599_j78005196030507_1_alg».proof.Proof.Gen.ReferenceIdeal.Read
import proofs.«150599_j78005196030507_1_alg».proof.Proof.Spec
import Idealize.ShloMosaic.Lib.ReduceAll

noncomputable section

namespace Cert.Finite

open Idealize.ShloMosaic Idealize.ShloMosaic.ValueIdx Cert.BnSpec

/-! ### Reals inside the extended reals -/

/-- A coerced real is real. -/
theorem isReal_coe (r : ℝ) : IsReal (r : EReal) := ⟨r, rfl⟩

/-- Zero is real. -/
theorem isReal_zero : IsReal (0 : EReal) := ⟨0, EReal.coe_zero.symm⟩

/-- The sum of two reals is real. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The product of two reals is real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is real. -/
theorem isReal_sum {ι : Type} (s : Finset ι) (f : ι → EReal) (h : ∀ j ∈ s, IsReal (f j)) : IsReal (∑ j ∈ s, f j) := by
  classical
  induction s using Finset.induction_on with
  | empty => rw [Finset.sum_empty]; exact isReal_zero
  | insert a s ha ih =>
    rw [Finset.sum_insert ha]
    exact isReal_add (h a (Finset.mem_insert_self a s)) (ih fun j hj => h j (Finset.mem_insert_of_mem hj))

/-- A real over a nonzero real is real. -/
theorem isReal_div {a : EReal} {d : ℝ} (ha : IsReal a) (hd : d ≠ 0) : IsReal (Ideal.div a (d : EReal)) := by
  rw [Ideal.div_coe hd]
  exact isReal_mul ha (isReal_coe _)

/-! ### The precondition read back -/

/-- The pattern the precondition compares against denotes plus infinity. -/
theorem ofBits_inf : Ideal.ofBits .f32 0x7F800000#32 = (⊤ : EReal) := by
  simp [Ideal.ofBits, Ideal.ieee]

/-- An extended real whose absolute value is strictly below plus infinity is a real: minus infinity has absolute
    value plus infinity, and plus infinity is not below itself. -/
theorem isReal_of_abs_lt (x : Ideal .f32)
    (h : FloatOps.cmpf (F := Ideal) .olt (FloatOps.hostAbsf x) (FloatOps.ofBits .f32 0x7F800000#32) = 1#1) : IsReal x := by
  rw [Ideal.cmpf_def, Ideal.hostAbsf_def, Ideal.absf_def, Ideal.ofBits_def, ofBits_inf] at h
  unfold Ideal.cmp at h
  induction x using EReal.rec with
  | bot => simp at h
  | coe r => exact ⟨r, rfl⟩
  | top => simp at h

/-- Under the precondition the node features, the weights and the bias are arrays of reals. -/
theorem real_of_pre [Cert.Pre_finite_inputs.Facts]
    (a0 : FVec Ideal Cert.Pre_finite_inputs.S50000x128 .f32) (a1 : IVec Cert.Pre_finite_inputs.S2x600000 32)
    (a2 : FVec Ideal Cert.Pre_finite_inputs.S128x128 .f32) (a3 a4 a5 : FVec Ideal Cert.Pre_finite_inputs.S128 .f32)
    (h : Cert.Pre_finite_inputs.fn (F := Ideal) a0 a1 a2 a3 a4 a5 = (fun _ => 1#1)) :
    (∀ i, IsReal (a0 i)) ∧ (∀ i, IsReal (a2 i)) ∧ (∀ i, IsReal (a3 i)) := by
  -- the predicate is a conjunction of five "all entries finite" tests; the first three are the ones wanted
  -- the shape with no axes has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1, _⟩ := IntOp.andi_eq_one.1 h0
  obtain ⟨h2, _⟩ := IntOp.andi_eq_one.1 h1
  obtain ⟨h3, hc⟩ := IntOp.andi_eq_one.1 h2
  obtain ⟨ha, hb⟩ := IntOp.andi_eq_one.1 h3
  refine ⟨fun i => ?_, fun i => ?_, fun i => ?_⟩
  · exact isReal_of_abs_lt (a0 i) (Host.reduce_andi_all _ _ _ _ _ ha i)
  · exact isReal_of_abs_lt (a2 i) (Host.reduce_andi_all _ _ _ _ _ hb i)
  · exact isReal_of_abs_lt (a3 i) (Host.reduce_andi_all _ _ _ _ _ hc i)

/-! ### The degree-normalised neighbour sum -/

section Degree

open Cert.ReferenceIdeal Cert.ReferenceIdeal.Read

/-- The pattern of the float one denotes the real one. -/
theorem ofBits_one : Ideal.ofBits .f32 0x3F800000#32 = ((1 : ℝ) : EReal) := by
  simp [Ideal.ofBits, Ideal.ieee, -EReal.coe_mul]
  norm_num

/-- A degree is the larger of one and an integer count, so it is a real and it is not zero. -/
theorem deg_real (x1 : (⟨Cert.ReferenceIdeal.S2x600000, .i32⟩ : BufTy).Contents (Elt Ideal)) (k : Cert.ReferenceIdeal.S50000.Idx) :
    ∃ d : ℝ, val_main_v15 (F := Ideal) x1 k = (d : EReal) ∧ d ≠ 0 := by
  refine ⟨max 1 ((val_main_v13 (F := Ideal) x1 k).toInt : ℝ), ?_, ?_⟩
  · rw [val_main_v15_apply, val_main_call1_v1_apply, val_main_call1_v0_apply, val_main_cst_apply, val_main_v14_apply,
      Ideal.maximumf_def, Ideal.ofBits_def, ofBits_one]
    exact (EReal.coe_strictMono.monotone.map_max (a := (1 : ℝ))
      (b := ((val_main_v13 (F := Ideal) x1 k).toInt : ℝ))).symm
  · have h1 : (1 : ℝ) ≤ max 1 ((val_main_v13 (F := Ideal) x1 k).toInt : ℝ) := le_max_left _ _
    intro h0
    rw [h0] at h1
    exact absurd h1 (by norm_num)

end Degree

/-- The degree-normalised neighbour sum of real node features is real, whatever the edge list. -/
theorem agg_isReal (x0 : (⟨Cert.ReferenceIdeal.S50000x128, .f32⟩ : BufTy).Contents (Elt Ideal))
    (x1 : (⟨Cert.ReferenceIdeal.S2x600000, .i32⟩ : BufTy).Contents (Elt Ideal)) (hx : ∀ i, IsReal (x0 i)) :
    ∀ i, IsReal (Cert.ReferenceIdeal.Read.val_main_v28 (F := Ideal) x0 x1 i) := by
  intro i
  rw [ReferenceIdeal.Read.val_main_v28_apply, Ideal.hostDivf_def]
  -- the divisor: the degree of the row, broadcast along the row
  obtain ⟨d, hd, hd0⟩ := deg_real x1 (ReferenceIdeal.Read.idx_main_v26 (ReferenceIdeal.Read.idx_main_v27 i))
  rw [ReferenceIdeal.Read.val_main_v27_apply, ReferenceIdeal.Read.val_main_v26_apply, hd]
  refine isReal_div ?_ hd0
  -- the dividend: zero plus the sum of the gathered rows that land on this entry
  unfold ReferenceIdeal.Read.val_main_v25 Host.scatterAdd
  rw [Ideal.hostScatterAdd_def]
  unfold Ideal.hostScatterAdd
  refine isReal_add ?_ (isReal_sum _ _ fun j _ => ?_)
  · rw [ReferenceIdeal.Read.val_main_v23_apply, ReferenceIdeal.Read.val_main_cst_6_apply, Ideal.ofBits_def,
      Ideal.ofBits_zero_f32]
    exact isReal_zero
  · -- a gathered entry is an entry of the features
    exact hx _

end Cert.Finite

end
-- ==== Proof.lean ====
/-
  A graph layer: each node's features plus the degree-normalised sum of its neighbours' features go through a linear
  layer, are normalised per feature by the batch mean and variance over all 50000 nodes, scaled, shifted and clamped
  at zero.

  One program computes the linear layer block by block (2000 nodes at a time), accumulating each feature's sum and
  sum of squares across the blocks, takes the variance as the second moment minus the squared mean, and normalises in
  a second pass over the blocks.  The other computes the mean, then the variance as the mean squared deviation.  Both
  build the neighbour sum by the same gather, scatter-add, count and division, so that part is carried as one term.

  Over the extended reals the two variances agree on a column of real numbers, since ∑ (y − μ)² = ∑ y² − 2 μ ∑ y + N μ²
  with ∑ y = N μ; at an infinite entry they would not, so finiteness is needed and is supplied by the precondition:
  finite features, weights and bias make the neighbour sum, hence the linear layer, real everywhere.

  Block sums add up to whole-column sums by associativity and commutativity alone; a change of float format is the
  identity; the transposed weight block contracted on its first axis is the weight matrix contracted on its second.
-/
import proofs.«150599_j78005196030507_1_alg».proof.Defs
import proofs.«150599_j78005196030507_1_alg».proof.Proof.Gen.Kernel
import proofs.«150599_j78005196030507_1_alg».proof.Proof.Gen.Kernel.Frame
import proofs.«150599_j78005196030507_1_alg».proof.Proof.Gen.KernelIdeal
import proofs.«150599_j78005196030507_1_alg».proof.Proof.Gen.KernelIdeal.Frame
import proofs.«150599_j78005196030507_1_alg».proof.Proof.Gen.ReferenceIdeal
import proofs.«150599_j78005196030507_1_alg».proof.Proof.Gen.ReferenceIdeal.Run
import proofs.«150599_j78005196030507_1_alg».proof.Proof.Gen.ReferenceIdeal.Read
import proofs.«150599_j78005196030507_1_alg».proof.Proof.Gen.Pre_finite_inputs
import proofs.«150599_j78005196030507_1_alg».proof.Proof.KernelRun
import proofs.«150599_j78005196030507_1_alg».proof.Proof.KernelValue
import proofs.«150599_j78005196030507_1_alg».proof.Proof.RefValue
import proofs.«150599_j78005196030507_1_alg».proof.Proof.SpecLaws
import proofs.«150599_j78005196030507_1_alg».proof.Proof.Finite

noncomputable section

namespace Cert.Proof

open Idealize.ShloMosaic Idealize.ShloMosaic.TcCoe Idealize.SL.Sem Cert.BnSpec

/-- The word-level program runs and leaves its arguments as launched. -/
theorem frame_k : Cert.frame_Kernel := fun m ρ _ => Cert.Kernel.Gen.frame m ρ

/-- So does the same program read over the extended reals. -/
theorem frame_ki : Cert.frame_KernelIdeal := fun m ρ _ => Cert.KernelIdeal.Gen.frame m ρ

/-- The other program is a sequence of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: each ends at the spec's function
    of the arguments, one with the variance as second moment minus squared mean, the other as mean squared deviation,
    and on the real columns the precondition guarantees these are one function. -/
theorem algebraic : Cert.algebraic_KernelIdeal_ReferenceIdeal := by
  intro m ρ m' ρ' hpre hagree
  refine ⟨fun c => outK (m ((c : Thread Cert.KernelIdeal.nD Cert.KernelIdeal.τ).loc Cert.KernelIdeal.main_arg0))
      (Cert.KernelIdeal.Whole.agg m c)
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_eq m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hW, hb⟩ := Cert.Finite.real_of_pre _ _ _ _ _ _ (hpre c)
    rw [Cert.ReferenceIdeal.Read.val_main_v59_eq, Cert.ReferenceIdeal.RefValue.result_eq,
      (hagree c).1, (hagree c).2.1, (hagree c).2.2.1, (hagree c).2.2.2.1, (hagree c).2.2.2.2.1, (hagree c).2.2.2.2.2]
    exact (outK_eq_outR _ _ _ _ _ _ hx (Cert.Finite.agg_isReal _ _ hx) hW hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
